-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v40)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v40) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S_ : Shape := ⟨0, ![]⟩
abbrev S1x1600000 : Shape := ⟨2, ![1, 1600000]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S40x128 : S_.BroadcastsInDim S40x128 (![] : Fin 0 → Fin S40x128.rank)
  reducesTo_S40x128_S_d0_1 : S40x128.ReducesTo [0, 1] S_
  bcast_S_S40 : S_.BroadcastsInDim S40 (![] : Fin 0 → Fin S40.rank)
  reducesTo_S40_S_d0 : S40.ReducesTo [0] S_
  slices_S2x1600000_S1x1600000_0_0 : S2x1600000.Slices ![0, 0] S1x1600000
  shapeCasts_S1x1600000_S1600000 : S1x1600000.ShapeCasts S1600000

variable [Facts]

def fn_part3 {F : FTy → Type} [FloatOps F] (main_arg1 : IVec S2x1600000 32) (main_v48 : IVec S_ 1) (main_v50 : IVec S1600000 32) (main_c_18 : IVec S_ 32) : IVec S_ 1 :=
  let main_v51 : IVec S1600000 32 := broadcastInDim S1600000 ![] bcast_S_S1600000 main_c_18
  let main_v52 : IVec S1600000 1 := cmpi .sge main_v50 main_v51
  let main_v53 : IVec S1x1600000 32 := (extractStridedSlice S1x1600000 ![0, 0] · slices_S2x1600000_S1x1600000_0_0) main_arg1
  let main_v54 : IVec S1600000 32 := shapeCast S1600000 main_v53 shapeCasts_S1x1600000_S1600000
  let main_c_19 : IVec S_ 32 := constantI S_ 32 100000#32
  let main_v55 : IVec S1600000 32 := broadcastInDim S1600000 ![] bcast_S_S1600000 main_c_19
  let main_v56 : IVec S1600000 1 := cmpi .slt main_v54 main_v55
  let main_v57 : IVec S1600000 1 := andi main_v52 main_v56
  let main_c_20 : IVec S_ 1 := constantI S_ 1 1#1
  let main_v58 : IVec S_ 1 := (fun x v => Host.reduce IntOp.andi x v reducesTo_S1600000_S_d0 h_S_) main_v57 main_c_20
  let main_v59 : IVec S_ 1 := andi main_v48 main_v58
  main_v59

def fn_part2 {F : FTy → Type} [FloatOps F] (main_arg1 : IVec S2x1600000 32) (main_arg8 : FVec F S128x128 .f32) (main_arg9 : FVec F S40x128 .f32) (main_arg10 : FVec F S40 .f32) (main_v33 : IVec S_ 1) : IVec S_ 1 :=
  let main_v34 : FVec F S128x128 .f32 := Host.absf main_arg8
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S40x128 .f32 := Host.absf main_arg9
  let main_cst_14 : FVec F S_ .f32 := constant S_ .f32 0x7F800000#32
  let main_v40 : FVec F S40x128 .f32 := broadcastInDim S40x128 ![] bcast_S_S40x128 main_cst_14
  let main_v41 : IVec S40x128 1 := cmpf .olt main_v39 main_v40
  let main_c_15 : IVec S_ 1 := constantI S_ 1 1#1
  let main_v42 : IVec S_ 1 := (fun x v => Host.reduce IntOp.andi x v reducesTo_S40x128_S_d0_1 h_S_) main_v41 main_c_15
  let main_v43 : IVec S_ 1 := andi main_v38 main_v42
  let main_v44 : FVec F S40 .f32 := Host.absf main_arg10
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  let main_v49 : IVec S1x1600000 32 := (extractStridedSlice S1x1600000 ![0, 0] · slices_S2x1600000_S1x1600000_0_0) main_arg1
  let main_v50 : IVec S1600000 32 := shapeCast S1600000 main_v49 shapeCasts_S1x1600000_S1600000
  let main_c_18 : IVec S_ 32 := constantI S_ 32 0#32
  fn_part3 (F := F) main_arg1 main_v48 main_v50 main_c_18

def fn_part1 {F : FTy → Type} [FloatOps F] (main_arg1 : IVec S2x1600000 32) (main_arg5 : FVec F S128x128 .f32) (main_arg6 : FVec F S128x128 .f32) (main_arg7 : FVec F S128 .f32) (main_arg8 : FVec F S128x128 .f32) (main_arg9 : FVec F S40x128 .f32) (main_arg10 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg6
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg7
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg1 main_arg8 main_arg9 main_arg10 main_v33

def fn {F : FTy → Type} [FloatOps F] (main_arg0 : FVec F S100000x128 .f32) (main_arg1 : IVec S2x1600000 32) (main_arg2 : FVec F S1600000 .f32) (main_arg3 : FVec F S128x128 .f32) (main_arg4 : FVec F S128 .f32) (main_arg5 : FVec F S128x128 .f32) (main_arg6 : FVec F S128x128 .f32) (main_arg7 : FVec F S128 .f32) (main_arg8 : FVec F S128x128 .f32) (main_arg9 : FVec F S40x128 .f32) (main_arg10 : FVec F S40 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S128x128 .f32 := Host.absf main_arg3
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg1 main_arg5 main_arg6 main_arg7 main_arg8 main_arg9 main_arg10 main_v13 main_v16
-- ==== Kernel.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S_ : Shape := ⟨0, ![]⟩
abbrev S1600000x1 : Shape := ⟨2, ![1600000, 1]⟩
abbrev S1 : Shape := ⟨1, ![1]⟩
abbrev S1x1 : Shape := ⟨2, ![1, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S128x40 : Shape := ⟨2, ![128, 40]⟩
abbrev S1x40 : Shape := ⟨2, ![1, 40]⟩
abbrev S100000x40 : Shape := ⟨2, ![100000, 40]⟩
abbrev S5000x40 : Shape := ⟨2, ![5000, 40]⟩

abbrev nBuf : Space → Nat
  | .hbm => 104
  | .vmem => 24
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S40x128, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1, .i32⟩
  | .hbm, ⟨24, _⟩ => ⟨S_, .i32⟩
  | .hbm, ⟨25, _⟩ => ⟨S1600000x1, .i32⟩
  | .hbm, ⟨26, _⟩ => ⟨S1600000x1, .i1⟩
  | .hbm, ⟨27, _⟩ => ⟨S1x1, .i32⟩
  | .hbm, ⟨28, _⟩ => ⟨S1600000x1, .i32⟩
  | .hbm, ⟨29, _⟩ => ⟨S1600000x1, .i1⟩
  | .hbm, ⟨30, _⟩ => ⟨S1600000x1, .i1⟩
  | .hbm, ⟨31, _⟩ => ⟨S_, .i1⟩
  | .hbm, ⟨32, _⟩ => ⟨S1600000, .i1⟩
  | .hbm, ⟨33, _⟩ => ⟨S1600000x128, .f32⟩
  | .hbm, ⟨34, _⟩ => ⟨S1600000x128, .i1⟩
  | .hbm, ⟨35, _⟩ => ⟨S_, .f32⟩
  | .hbm, ⟨36, _⟩ => ⟨S1600000x128, .f32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S_, .f32⟩
  | .hbm, ⟨43, _⟩ => ⟨S1600000, .f32⟩
  | .hbm, ⟨44, _⟩ => ⟨S_, .f32⟩
  | .hbm, ⟨45, _⟩ => ⟨S100000, .f32⟩
  | .hbm, ⟨46, _⟩ => ⟨S1600000x1, .i32⟩
  | .hbm, ⟨47, _⟩ => ⟨S100000, .f32⟩
  | .hbm, ⟨48, _⟩ => ⟨S_, .f32⟩
  | .hbm, ⟨49, _⟩ => ⟨S100000, .f32⟩
  | .hbm, ⟨50, _⟩ => ⟨S100000, .f32⟩
  | .hbm, ⟨51, _⟩ => ⟨S100000x1, .f32⟩
  | .hbm, ⟨52, _⟩ => ⟨S100000x128, .f32⟩
  | .hbm, ⟨53, _⟩ => ⟨S100000x128, .f32⟩
  | .hbm, ⟨54, _⟩ => ⟨S128x128, .f32⟩
  | .hbm, ⟨55, _⟩ => ⟨S1x128, .f32⟩
  | .hbm, ⟨56, _⟩ => ⟨S128x128, .f32⟩
  | .hbm, ⟨57, _⟩ => ⟨S100000x128, .f32⟩
  | .hbm, ⟨58, _⟩ => ⟨S_, .i32⟩
  | .hbm, ⟨59, _⟩ => ⟨S1600000, .i32⟩
  | .hbm, ⟨60, _⟩ => ⟨S1600000, .i1⟩
  | .hbm, ⟨61, _⟩ => ⟨S_, .i32⟩
  | .hbm, ⟨62, _⟩ => ⟨S1600000, .i32⟩
  | .hbm, ⟨63, _⟩ => ⟨S1600000, .i32⟩
  | .hbm, ⟨64, _⟩ => ⟨S1600000, .i32⟩
  | .hbm, ⟨65, _⟩ => ⟨S1600000x1, .i32⟩
  | .hbm, ⟨66, _⟩ => ⟨S1, .i32⟩
  | .hbm, ⟨67, _⟩ => ⟨S_, .i32⟩
  | .hbm, ⟨68, _⟩ => ⟨S1600000x1, .i32⟩
  | .hbm, ⟨69, _⟩ => ⟨S1600000x1, .i1⟩
  | .hbm, ⟨70, _⟩ => ⟨S1x1, .i32⟩
  | .hbm, ⟨71, _⟩ => ⟨S1600000x1, .i32⟩
  | .hbm, ⟨72, _⟩ => ⟨S1600000x1, .i1⟩
  | .hbm, ⟨73, _⟩ => ⟨S1600000x1, .i1⟩
  | .hbm, ⟨74, _⟩ => ⟨S_, .i1⟩
  | .hbm, ⟨75, _⟩ => ⟨S1600000, .i1⟩
  | .hbm, ⟨76, _⟩ => ⟨S1600000x128, .f32⟩
  | .hbm, ⟨77, _⟩ => ⟨S1600000x128, .i1⟩
  | .hbm, ⟨78, _⟩ => ⟨S_, .f32⟩
  | .hbm, ⟨79, _⟩ => ⟨S1600000x128, .f32⟩
  | .hbm, ⟨80, _⟩ => ⟨S1600000x128, .f32⟩
  | .hbm, ⟨81, _⟩ => ⟨S_, .f32⟩
  | .hbm, ⟨82, _⟩ => ⟨S100000x128, .f32⟩
  | .hbm, ⟨83, _⟩ => ⟨S1600000x1, .i32⟩
  | .hbm, ⟨84, _⟩ => ⟨S100000x128, .f32⟩
  | .hbm, ⟨85, _⟩ => ⟨S_, .f32⟩
  | .hbm, ⟨86, _⟩ => ⟨S1600000, .f32⟩
  | .hbm, ⟨87, _⟩ => ⟨S_, .f32⟩
  | .hbm, ⟨88, _⟩ => ⟨S100000, .f32⟩
  | .hbm, ⟨89, _⟩ => ⟨S1600000x1, .i32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x128, .f32⟩
  | .hbm, ⟨96, _⟩ => ⟨S100000x128, .f32⟩
  | .hbm, ⟨97, _⟩ => ⟨S128x128, .f32⟩
  | .hbm, ⟨98, _⟩ => ⟨S1x128, .f32⟩
  | .hbm, ⟨99, _⟩ => ⟨S128x128, .f32⟩
  | .hbm, ⟨100, _⟩ => ⟨S100000x128, .f32⟩
  | .hbm, ⟨101, _⟩ => ⟨S128x40, .f32⟩
  | .hbm, ⟨102, _⟩ => ⟨S1x40, .f32⟩
  | .hbm, ⟨103, _⟩ => ⟨S100000x40, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x128, .f32⟩
  | .local _ .vmem, ⟨14, _⟩ => ⟨S1x128, .f32⟩
  | .local _ .vmem, ⟨15, _⟩ => ⟨S128x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S5000x128, .f32⟩
  | .local _ .vmem, ⟨20, _⟩ => ⟨S128x40, .f32⟩
  | .local _ .vmem, ⟨21, _⟩ => ⟨S1x40, .f32⟩
  | .local _ .vmem, ⟨22, _⟩ => ⟨S5000x40, .f32⟩
  | .local _ .vmem, ⟨23, _⟩ => ⟨S5000x40, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_c : Ref sig .tc := ⟨.hbm, 15, rfl⟩
abbrev main_call0_v0 : Ref sig .tc := ⟨.hbm, 16, rfl⟩
abbrev main_call0_v1 : Ref sig .tc := ⟨.hbm, 17, rfl⟩
abbrev main_call0_c_0 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_c_1 : Ref sig .tc := ⟨.hbm, 23, rfl⟩
abbrev main_call0_c_2 : Ref sig .tc := ⟨.hbm, 24, rfl⟩
abbrev main_call0_v6 : Ref sig .tc := ⟨.hbm, 25, rfl⟩
abbrev main_call0_v7 : Ref sig .tc := ⟨.hbm, 26, rfl⟩
abbrev main_call0_v8 : Ref sig .tc := ⟨.hbm, 27, rfl⟩
abbrev main_call0_v9 : Ref sig .tc := ⟨.hbm, 28, rfl⟩
abbrev main_call0_v10 : Ref sig .tc := ⟨.hbm, 29, rfl⟩
abbrev main_call0_v11 : Ref sig .tc := ⟨.hbm, 30, rfl⟩
abbrev main_call0_c_3 : Ref sig .tc := ⟨.hbm, 31, rfl⟩
abbrev main_call0_v12 : Ref sig .tc := ⟨.hbm, 32, rfl⟩
abbrev main_call0_v13 : Ref sig .tc := ⟨.hbm, 33, rfl⟩
abbrev main_call0_v14 : Ref sig .tc := ⟨.hbm, 34, rfl⟩
abbrev main_call0_cst : Ref sig .tc := ⟨.hbm, 35, rfl⟩
abbrev main_call0_v15 : Ref sig .tc := ⟨.hbm, 36, rfl⟩
abbrev main_v4 : Ref sig .tc := ⟨.hbm, 37, rfl⟩
abbrev main_cst : Ref sig .tc := ⟨.hbm, 38, rfl⟩
abbrev main_v5 : Ref sig .tc := ⟨.hbm, 39, rfl⟩
abbrev main_v6 : Ref sig .tc := ⟨.hbm, 40, rfl⟩
abbrev main_v7 : Ref sig .tc := ⟨.hbm, 41, rfl⟩
abbrev main_cst_0 : Ref sig .tc := ⟨.hbm, 42, rfl⟩
abbrev main_v8 : Ref sig .tc := ⟨.hbm, 43, rfl⟩
abbrev main_cst_1 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst_2 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_v17 : Ref sig .tc := ⟨.hbm, 54, rfl⟩
abbrev main_v18 : Ref sig .tc := ⟨.hbm, 55, rfl⟩
abbrev main_v19 : Ref sig .tc := ⟨.hbm, 56, rfl⟩
abbrev main_v20 : Ref sig .tc := ⟨.hbm, 57, rfl⟩
abbrev main_call1_c : Ref sig .tc := ⟨.hbm, 58, rfl⟩
abbrev main_call1_v0 : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_v5 : Ref sig .tc := ⟨.hbm, 65, rfl⟩
abbrev main_call1_c_1 : Ref sig .tc := ⟨.hbm, 66, rfl⟩
abbrev main_call1_c_2 : Ref sig .tc := ⟨.hbm, 67, rfl⟩
abbrev main_call1_v6 : Ref sig .tc := ⟨.hbm, 68, rfl⟩
abbrev main_call1_v7 : Ref sig .tc := ⟨.hbm, 69, rfl⟩
abbrev main_call1_v8 : Ref sig .tc := ⟨.hbm, 70, rfl⟩
abbrev main_call1_v9 : Ref sig .tc := ⟨.hbm, 71, rfl⟩
abbrev main_call1_v10 : Ref sig .tc := ⟨.hbm, 72, rfl⟩
abbrev main_call1_v11 : Ref sig .tc := ⟨.hbm, 73, rfl⟩
abbrev main_call1_c_3 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_call1_cst : Ref sig .tc := ⟨.hbm, 78, rfl⟩
abbrev main_call1_v15 : Ref sig .tc := ⟨.hbm, 79, rfl⟩
abbrev main_v21 : Ref sig .tc := ⟨.hbm, 80, rfl⟩
abbrev main_cst_3 : Ref sig .tc := ⟨.hbm, 81, rfl⟩
abbrev main_v22 : Ref sig .tc := ⟨.hbm, 82, rfl⟩
abbrev main_v23 : Ref sig .tc := ⟨.hbm, 83, rfl⟩
abbrev main_v24 : Ref sig .tc := ⟨.hbm, 84, rfl⟩
abbrev main_cst_4 : Ref sig .tc := ⟨.hbm, 85, rfl⟩
abbrev main_v25 : Ref sig .tc := ⟨.hbm, 86, rfl⟩
abbrev main_cst_5 : Ref sig .tc := ⟨.hbm, 87, rfl⟩
abbrev main_v26 : Ref sig .tc := ⟨.hbm, 88, rfl⟩
abbrev main_v27 : Ref sig .tc := ⟨.hbm, 89, rfl⟩
abbrev main_v28 : Ref sig .tc := ⟨.hbm, 90, rfl⟩
abbrev main_cst_6 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34 : Ref sig .tc := ⟨.hbm, 97, rfl⟩
abbrev main_v35 : Ref sig .tc := ⟨.hbm, 98, rfl⟩
abbrev main_v36 : Ref sig .tc := ⟨.hbm, 99, rfl⟩
abbrev main_v37 : Ref sig .tc := ⟨.hbm, 100, rfl⟩
abbrev main_v38 : Ref sig .tc := ⟨.hbm, 101, rfl⟩
abbrev main_v39 : Ref sig .tc := ⟨.hbm, 102, rfl⟩
abbrev main_v40 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc2_sem0_0 : DmaSem sig := 18
abbrev cc2_sem0_1 : DmaSem sig := 19
abbrev cc2_sem1_0 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x40 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x40 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x128_0 : S1600000.BroadcastsInDim S1600000x128 (![0] : Fin 1 → Fin S1600000x128.rank)
  bcast_S_S1600000x128 : S_.BroadcastsInDim S1600000x128 (![] : Fin 0 → Fin S1600000x128.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  transposes_S40x128_S128x40_1_0 : S40x128.Transposes [1, 0] S128x40
  shapeCasts_S40_S1x40 : S40.ShapeCasts S1x40
  inb_S128x40_S128x40_0_0 : ∀ a, (![0, 0] : Fin 2 → Nat) a + S128x40.size a ≤ S128x40.size a
  h_S128x40 : 0 < S128x40.numel
  shapeCasts_S128x40_S128x40 : S128x40.ShapeCasts S128x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  inb_S5000x40_S5000x40_0_0 : ∀ a, (![0, 0] : Fin 2 → Nat) a + S5000x40.size a ≤ S5000x40.size a
  h_S5000x40 : 0 < S5000x40.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x40.size a ≤ S128x40.size a
  hwx2_1 : ∀ i : grid2.Coords, EltTy.bits .f32 = 32 ∨ (Rect.block (s := S128x40) S128x40.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x40.size a ≤ S1x40.size a
  hwx2_2 : ∀ i : grid2.Coords, EltTy.bits .f32 = 32 ∨ (Rect.block (s := S1x40) S1x40.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x40.size a ≤ S100000x40.size a
  hwx2_3 : ∀ i : grid2.Coords, EltTy.bits .f32 = 32 ∨ (Rect.block (s := S100000x40) S5000x40.size (cc2_transform_3 i) (hinb2_3 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf

abbrev win0_0 : Pipeline.Window sig grid0 :=
  Pipeline.Window.ofSpec (Memref.whole main_v16) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v17) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v20) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v33) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v20) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v37) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v37) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v38) S128x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v39) S1x40.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v40) S5000x40.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S1600000 : Shape := ⟨1, ![1600000]⟩
abbrev S128x128 : Shape := ⟨2, ![128, 128]⟩
abbrev S128 : Shape := ⟨1, ![128]⟩
abbrev S40x128 : Shape := ⟨2, ![40, 128]⟩
abbrev S40 : Shape := ⟨1, ![40]⟩
abbrev S1x1600000 : Shape := ⟨2, ![1, 1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S128x40 : Shape := ⟨2, ![128, 40]⟩
abbrev S100000x40 : Shape := ⟨2, ![100000, 40]⟩
abbrev S1x40 : Shape := ⟨2, ![1, 40]⟩

abbrev nBuf : Space → Nat
  | .hbm => 92
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S2x1600000, .i32⟩
  | .hbm, ⟨2, _⟩ => ⟨S1600000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S40x128, .f32⟩
  | .hbm, ⟨10, _⟩ => ⟨S40, .f32⟩
  | .hbm, ⟨11, _⟩ => ⟨S1x1600000, .i32⟩
  | .hbm, ⟨12, _⟩ => ⟨S1600000, .i32⟩
  | .hbm, ⟨13, _⟩ => ⟨S1x1600000, .i32⟩
  | .hbm, ⟨14, _⟩ => ⟨S1600000, .i32⟩
  | .hbm, ⟨15, _⟩ => ⟨S_, .i32⟩
  | .hbm, ⟨16, _⟩ => ⟨S1600000, .i32⟩
  | .hbm, ⟨17, _⟩ => ⟨S1600000, .i1⟩
  | .hbm, ⟨18, _⟩ => ⟨S_, .i32⟩
  | .hbm, ⟨19, _⟩ => ⟨S1600000, .i32⟩
  | .hbm, ⟨20, _⟩ => ⟨S1600000, .i32⟩
  | .hbm, ⟨21, _⟩ => ⟨S1600000, .i32⟩
  | .hbm, ⟨22, _⟩ => ⟨S1600000x1, .i32⟩
  | .hbm, ⟨23, _⟩ => ⟨S1600000x128, .f32⟩
  | .hbm, ⟨24, _⟩ => ⟨S_, .f32⟩
  | .hbm, ⟨25, _⟩ => ⟨S100000x128, .f32⟩
  | .hbm, ⟨26, _⟩ => ⟨S1600000x1, .i32⟩
  | .hbm, ⟨27, _⟩ => ⟨S100000x128, .f32⟩
  | .hbm, ⟨28, _⟩ => ⟨S_, .f32⟩
  | .hbm, ⟨29, _⟩ => ⟨S1600000, .f32⟩
  | .hbm, ⟨30, _⟩ => ⟨S_, .f32⟩
  | .hbm, ⟨31, _⟩ => ⟨S100000, .f32⟩
  | .hbm, ⟨32, _⟩ => ⟨S1600000x1, .i32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S128x128, .f32⟩
  | .hbm, ⟨41, _⟩ => ⟨S100000x128, .f32⟩
  | .hbm, ⟨42, _⟩ => ⟨S1x128, .f32⟩
  | .hbm, ⟨43, _⟩ => ⟨S100000x128, .f32⟩
  | .hbm, ⟨44, _⟩ => ⟨S100000x128, .f32⟩
  | .hbm, ⟨45, _⟩ => ⟨S128x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S_, .f32⟩
  | .hbm, ⟨61, _⟩ => ⟨S100000x128, .f32⟩
  | .hbm, ⟨62, _⟩ => ⟨S1600000x1, .i32⟩
  | .hbm, ⟨63, _⟩ => ⟨S100000x128, .f32⟩
  | .hbm, ⟨64, _⟩ => ⟨S_, .f32⟩
  | .hbm, ⟨65, _⟩ => ⟨S1600000, .f32⟩
  | .hbm, ⟨66, _⟩ => ⟨S_, .f32⟩
  | .hbm, ⟨67, _⟩ => ⟨S100000, .f32⟩
  | .hbm, ⟨68, _⟩ => ⟨S1600000x1, .i32⟩
  | .hbm, ⟨69, _⟩ => ⟨S100000, .f32⟩
  | .hbm, ⟨70, _⟩ => ⟨S_, .f32⟩
  | .hbm, ⟨71, _⟩ => ⟨S100000, .f32⟩
  | .hbm, ⟨72, _⟩ => ⟨S100000, .f32⟩
  | .hbm, ⟨73, _⟩ => ⟨S100000x1, .f32⟩
  | .hbm, ⟨74, _⟩ => ⟨S100000x128, .f32⟩
  | .hbm, ⟨75, _⟩ => ⟨S100000x128, .f32⟩
  | .hbm, ⟨76, _⟩ => ⟨S128x128, .f32⟩
  | .hbm, ⟨77, _⟩ => ⟨S100000x128, .f32⟩
  | .hbm, ⟨78, _⟩ => ⟨S1x128, .f32⟩
  | .hbm, ⟨79, _⟩ => ⟨S100000x128, .f32⟩
  | .hbm, ⟨80, _⟩ => ⟨S100000x128, .f32⟩
  | .hbm, ⟨81, _⟩ => ⟨S128x128, .f32⟩
  | .hbm, ⟨82, _⟩ => ⟨S100000x128, .f32⟩
  | .hbm, ⟨83, _⟩ => ⟨S100000x128, .f32⟩
  | .hbm, ⟨84, _⟩ => ⟨S_, .f32⟩
  | .hbm, ⟨85, _⟩ => ⟨S100000x128, .f32⟩
  | .hbm, ⟨86, _⟩ => ⟨S100000x128, .f32⟩
  | .hbm, ⟨87, _⟩ => ⟨S128x40, .f32⟩
  | .hbm, ⟨88, _⟩ => ⟨S100000x40, .f32⟩
  | .hbm, ⟨89, _⟩ => ⟨S1x40, .f32⟩
  | .hbm, ⟨90, _⟩ => ⟨S100000x40, .f32⟩
  | .hbm, ⟨91, _⟩ => ⟨S100000x40, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_c : Ref sig .tc := ⟨.hbm, 15, rfl⟩
abbrev main_v4 : Ref sig .tc := ⟨.hbm, 16, rfl⟩
abbrev main_v5 : Ref sig .tc := ⟨.hbm, 17, rfl⟩
abbrev main_c_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst_1 : Ref sig .tc := ⟨.hbm, 28, rfl⟩
abbrev main_v14 : Ref sig .tc := ⟨.hbm, 29, rfl⟩
abbrev main_cst_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_3 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_call0_cst : Ref sig .tc := ⟨.hbm, 48, rfl⟩
abbrev main_call0_v0 : Ref sig .tc := ⟨.hbm, 49, rfl⟩
abbrev main_v31 : Ref sig .tc := ⟨.hbm, 50, rfl⟩
abbrev main_c_4 : Ref sig .tc := ⟨.hbm, 51, rfl⟩
abbrev main_v32 : Ref sig .tc := ⟨.hbm, 52, rfl⟩
abbrev main_v33 : Ref sig .tc := ⟨.hbm, 53, rfl⟩
abbrev main_c_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_6 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_7 : Ref sig .tc := ⟨.hbm, 64, rfl⟩
abbrev main_v42 : Ref sig .tc := ⟨.hbm, 65, rfl⟩
abbrev main_cst_8 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_cst_9 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_call1_cst : Ref sig .tc := ⟨.hbm, 84, rfl⟩
abbrev main_call1_v0 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  transposes_S128x128_S128x128_1_0 : S128x128.Transposes [1, 0] S128x128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  transposes_S40x128_S128x40_1_0 : S40x128.Transposes [1, 0] S128x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf

class Facts : Prop extends Facts₀ where

variable [Facts]
-- ==== Proof.SrcRange.lean ====
/-
  The precondition read back: besides the finiteness of the float inputs it says that every source index (row 0 of
  the edge table) lies in [0, 100000), the range of the node axis it indexes. The predicate ends in the conjunction of
  the finiteness tests with `all (src ≥ 0 ∧ src < 100000)`; an `all` that is true is true at every edge.
-/
import proofs.«421759_j17703855194786_1_alg».proof.Proof.Gen.Pre_finite_inputs
import Idealize.ShloMosaic.Lib.ReduceAll
import Idealize.ShloMosaic.Lib.ValueIdx

noncomputable section

namespace Cert.Pre_finite_inputs.Decode

open Cert.Pre_finite_inputs Cert.Pre_finite_inputs.Gen Idealize.ShloMosaic

variable {F : FTy → Type} [FloatOps F]

instance : Subsingleton S_.Idx := ⟨fun a b => funext fun d => d.elim0⟩

/-- Row 0 of the edge table, as the predicate slices it. -/
def src (ei : IVec S2x1600000 32) : IVec S1600000 32 :=
  shapeCast S1600000 ((extractStridedSlice S1x1600000 ![0, 0] · slices_S2x1600000_S1x1600000_0_0) ei) shapeCasts_S1x1600000_S1600000

/-- Under the precondition every source index is at least 0 and below 100000 (signed). -/
theorem src_in_range (a0 : FVec F S100000x128 .f32) (a1 : IVec S2x1600000 32) (a2 : FVec F S1600000 .f32)
    (a3 : FVec F S128x128 .f32) (a4 : FVec F S128 .f32) (a5 a6 : FVec F S128x128 .f32) (a7 : FVec F S128 .f32)
    (a8 : FVec F S128x128 .f32) (a9 : FVec F S40x128 .f32) (a10 : FVec F S40 .f32)
    (h : fn (F := F) a0 a1 a2 a3 a4 a5 a6 a7 a8 a9 a10 = fun _ => 1#1) (e : S1600000.Idx) :
    IntOp.cmpi .sge (src a1 e) 0#32 = 1#1 ∧ IntOp.cmpi .slt (src a1 e) 100000#32 = 1#1 := by
  have h0 := congrFun h ValueIdx.ix0
  dsimp only [fn, fn_part1, fn_part2, fn_part3] at h0
  obtain ⟨-, hall⟩ := IntOp.andi_eq_one.1 h0
  have he := Host.reduce_andi_all _ _ _ _ _ hall e
  obtain ⟨hge, hlt⟩ := IntOp.andi_eq_one.1 he
  exact ⟨hge, hlt⟩

end Cert.Pre_finite_inputs.Decode

end
-- ==== Proof.Aggregate.lean ====
/-
  The neighbour mean both programs compute on the host, as ONE function of a feature array and the edge table.

  Row 0 of the edge table holds each edge's source node, row 1 its destination. A negative source index is
  wrapped once by the number of nodes; the rows of the feature array at the wrapped sources are the messages; the
  messages are summed per destination, and so is a vector of ones (the in-degree); the mean is the sum divided by
  the degree, the degree raised to one where it is smaller (an isolated node's mean is zero).
-/
import proofs.«421759_j17703855194786_1_alg».proof.Proof.Gen.ReferenceIdeal

noncomputable section

namespace Cert.ReferenceIdeal.Agg

open Cert.ReferenceIdeal Cert.ReferenceIdeal.Gen Idealize.ShloMosaic

variable {F : FTy → Type} [FloatOps F]

/-- Row 0 of the edge table: the source node of each edge. -/
def src (ei : IVec S2x1600000 32) : IVec S1600000 32 :=
  shapeCast _ (extractStridedSlice S1x1600000 ![0, 0] ei slices_S2x1600000_S1x1600000_0_0) shapeCasts_S1x1600000_S1600000

/-- Row 1 of the edge table: the destination node of each edge. -/
def dst (ei : IVec S2x1600000 32) : IVec S1600000 32 :=
  shapeCast _ (extractStridedSlice S1x1600000 ![1, 0] ei slices_S2x1600000_S1x1600000_1_0) shapeCasts_S1x1600000_S1600000

/-- The start indices of the row gather: a negative index moved up by the number of nodes, as a column. -/
def wrap (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The messages summed per destination and divided by the in-degree (at least one). -/
def meanOfMsg (msg : FVec F S1600000x128 .f32) (d : IVec S1600000 32) : FVec F S100000x128 .f32 :=
  Host.divf
    (Host.scatterAdd scatter_S100000x128_S1600000x1_S1600000x128_1_0_0_1
      (broadcastInDim S100000x128 ![] bcast_S_S100000x128 (constant S_ .f32 0x00000000#32))
      (broadcastInDim S1600000x1 ![0] bcast_S1600000_S1600000x1_0 d) msg)
    (broadcastInDim S100000x128 ![0, 1] bcast_S100000x1_S100000x128_0_1
      (broadcastInDim S100000x1 ![0] bcast_S100000_S100000x1_0
        (maximumf
          (Host.scatterAdd scatter_S100000_S1600000x1_S1600000_n_0_0_1
            (broadcastInDim S100000 ![] bcast_S_S100000 (constant S_ .f32 0x00000000#32))
            (broadcastInDim S1600000x1 ![0] bcast_S1600000_S1600000x1_0 d)
            (broadcastInDim S1600000 ![] bcast_S_S1600000 (constant S_ .f32 0x3F800000#32)))
          (broadcastInDim S100000 ![] bcast_S_S100000 (constant S_ .f32 0x3F800000#32)))))

/-- The neighbour mean of a feature array over the edge table. -/
def mean (feat : FVec F S100000x128 .f32) (ei : IVec S2x1600000 32) : FVec F S100000x128 .f32 :=
  meanOfMsg (Host.gather gather_S100000x128_S1600000x1_S1600000x128_1_0_n_n_0_1_1128 feat (wrap (src ei))) (dst ei)

end Cert.ReferenceIdeal.Agg

end
-- ==== Proof.TakeInRange.lean ====
/-
  The kernel gathers message rows with a guarded take: after wrapping a negative index once, a row whose index is
  outside [0, 99999] is replaced by a fill value. When every source index is in [0, 100000) nothing is wrapped, every
  index passes the guard, and the guarded take IS the plain row gather at the wrapped indices.
-/
import proofs.«421759_j17703855194786_1_alg».proof.Proof.Gen.KernelIdeal
import Idealize.ShloMosaic.Lib.ReduceAll
import Idealize.ShloMosaic.Lib.ValueIdx

noncomputable section

namespace Cert.KernelIdeal.Take

open Cert.KernelIdeal Cert.KernelIdeal.Gen Idealize.ShloMosaic

variable {F : FTy → Type} [FloatOps F]

/-- A left fold by `and` from 1 over words that are all 1 is 1. -/
theorem foldl_andi_of_all {ι : Type} (f : ι → BitVec 1) :
    ∀ (l : List ι) (init : BitVec 1), init = 1#1 → (∀ n ∈ l, f n = 1#1) → l.foldl (fun r n => IntOp.andi r (f n)) init = 1#1
  | [], _, hi, _ => hi
  | a :: l, init, hi, h => by
    rw [List.foldl_cons]
    exact foldl_andi_of_all f l _ (IntOp.andi_eq_one.2 ⟨hi, h a List.mem_cons_self⟩)
      (fun n hn => h n (List.mem_cons_of_mem _ hn))

/-- A reduction by `and` from 1 of an array of ones is 1 everywhere. -/
theorem reduce_andi_of_all {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1) (j : t.Idx) :
    Host.reduce IntOp.andi x init h hu j = 1#1 := by
  rw [Host.reduce_eq_foldl]
  exact foldl_andi_of_all x _ _ hinit (fun n _ => hx n)

/-- One lane: a word in [0, 100000) is not wrapped and passes the guard 0 ≤ · ≤ 99999. -/
theorem lane (w : BitVec 32) (h0 : IntOp.cmpi .sge w 0#32 = 1#1) (h1 : IntOp.cmpi .slt w 100000#32 = 1#1) :
    IntOp.andi
      (IntOp.cmpi .sge (Scalar.select (IntOp.cmpi .slt w 0#32) (IntOp.addi w 100000#32) w) 0#32)
      (IntOp.cmpi .sle (Scalar.select (IntOp.cmpi .slt w 0#32) (IntOp.addi w 100000#32) w) 99999#32) = 1#1 := by
  have z0 : (0#32 : BitVec 32).toInt = 0 := by decide
  have z1 : (100000#32 : BitVec 32).toInt = 100000 := by decide
  have z2 : (99999#32 : BitVec 32).toInt = 99999 := by decide
  have hn : IntOp.cmpi .slt w 0#32 = 0#1 := ValueIdx.eq_zero_of_ne_one (by
    rw [IntOp.cmpi_slt]; rw [IntOp.cmpi_sge] at h0; omega)
  rw [hn, ValueIdx.select_zero]
  refine IntOp.andi_eq_one.2 ⟨h0, ?_⟩
  rw [IntOp.cmpi_sle]; rw [IntOp.cmpi_slt] at h1; omega

/-- The start indices of the row gather: a negative index moved up by the number of nodes, as a column. -/
def wrap (s : IVec S1600000 32) : IVec S1600000x1 32 :=
  broadcastInDim S1600000x1 ![0] bcast_S1600000_S1600000x1_0
    (select (cmpi .slt s (broadcastInDim S1600000 ![] bcast_S_S1600000 (constantI S_ 32 0#32)))
      (addi s (broadcastInDim S1600000 ![] bcast_S_S1600000 (constantI S_ 32 100000#32))) s)

/-- The guard: per edge, whether the wrapped index lies in [0, 99999]. -/
def guard (w : IVec S1600000x1 32) : IVec S1600000 1 :=
  Host.reduce IntOp.andi
    (andi (cmpi .sge w (broadcastInDim S1600000x1 ![] bcast_S_S1600000x1 (constantI S_ 32 0#32)))
      (cmpi .sle w (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- The guarded take of rows of `x` at the source indices `s`. -/
def take (x : FVec F S100000x128 .f32) (s : IVec S1600000 32) : FVec F S1600000x128 .f32 :=
  select (broadcastInDim S1600000x128 ![0] bcast_S1600000_S1600000x128_0 (guard (wrap s)))
    (Host.gather gather_S100000x128_S1600000x1_S1600000x128_1_0_n_n_0_1_1128 x (wrap s))
    (broadcastInDim S1600000x128 ![] bcast_S_S1600000x128 (constant S_ .f32 0x7FC00000#32))

/-- With every source index in [0, 100000) the guard holds at every edge. -/
theorem guard_eq_one (s : IVec S1600000 32)
    (hs : ∀ e, IntOp.cmpi .sge (s e) 0#32 = 1#1 ∧ IntOp.cmpi .slt (s e) 100000#32 = 1#1) (e : S1600000.Idx) :
    guard (wrap s) e = 1#1 := by
  unfold guard
  apply reduce_andi_of_all
  · rfl
  intro i
  obtain ⟨e', he'⟩ : ∃ e', wrap s i
      = Scalar.select (IntOp.cmpi .slt (s e') 0#32) (IntOp.addi (s e') 100000#32) (s e') := ⟨_, rfl⟩
  show IntOp.andi (IntOp.cmpi .sge (wrap s i) 0#32) (IntOp.cmpi .sle (wrap s i) 99999#32) = 1#1
  rw [he']
  exact lane _ (hs e').1 (hs e').2

/-- With every source index in [0, 100000) the guarded take is the row gather at the wrapped indices. -/
theorem take_eq_gather (x : FVec F S100000x128 .f32) (s : IVec S1600000 32)
    (hs : ∀ e, IntOp.cmpi .sge (s e) 0#32 = 1#1 ∧ IntOp.cmpi .slt (s e) 100000#32 = 1#1) :
    take x s = Host.gather gather_S100000x128_S1600000x1_S1600000x128_1_0_n_n_0_1_1128 x (wrap s) := by
  funext j
  obtain ⟨e, he⟩ : ∃ e, broadcastInDim S1600000x128 ![0] bcast_S1600000_S1600000x128_0 (guard (wrap s)) j
      = guard (wrap s) e := ⟨_, rfl⟩
  unfold take
  rw [ValueIdx.select_apply, he, guard_eq_one s hs e, ValueIdx.select_one]

end Cert.KernelIdeal.Take

end
-- ==== Proof.KernelHost.lean ====
/-
  The host side of the kernel's program, one stretch of host operations at a time and at ANY contents `X` of the
  buffers before the stretch: what the stretch leaves in the buffers the regions read. The gather stretch leaves the
  guarded take of the feature rows at the source indices; the aggregation stretch leaves the messages' mean per
  destination, the two layer weights transposed and the bias as a row; the last stretch leaves the classifier's
  weight transposed and its bias as a row.
-/
import proofs.«421759_j17703855194786_1_alg».proof.Proof.Gen.KernelIdeal.Launch
import proofs.«421759_j17703855194786_1_alg».proof.Proof.Aggregate
import proofs.«421759_j17703855194786_1_alg».proof.Proof.TakeInRange
import Idealize.ShloMosaic.Lib.StableHlo.Run

set_option maxRecDepth 16384

noncomputable section

namespace Cert.KernelIdeal.HostSide

open Cert.KernelIdeal Cert.KernelIdeal.Gen
open Idealize.ShloMosaic Idealize.ShloMosaic.TcCoe Idealize.SL.Sem Idealize.ShloMosaic.StableHlo

variable {F : FTy → Type} [FloatOps F]

/-- A buffer that no operation of the stretch writes keeps its contents. -/
macro "host_keep" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

/-- A typed reference's two transports undo one another. -/
theorem ofBuf_toBuf {T : BufTy} (x : TRef sig T) (v : T.Contents (Elt F)) : x.ofBuf (x.toBuf v) = v := by
  obtain ⟨r, h, a, b⟩ := x
  subst h
  rfl

/-- At a literal reference the transport is the identity. -/
theorem ofBuf_arg0 (h1 h2 h3) (v : (main_arg0 : Ref sig .tc).ty.Contents (Elt F)) :
    (TRef.of (sig := sig) (T := ⟨S100000x128, .f32⟩) main_arg0 h1 h2 h3).ofBuf v = v := rfl
theorem ofBuf_v20 (h1 h2 h3) (v : (main_v20 : Ref sig .tc).ty.Contents (Elt F)) :
    (TRef.of (sig := sig) (T := ⟨S100000x128, .f32⟩) main_v20 h1 h2 h3).ofBuf v = v := rfl
theorem ofBuf_v1 (h1 h2 h3) (v : (main_v1 : Ref sig .tc).ty.Contents (Elt F)) :
    (TRef.of (sig := sig) (T := ⟨S1600000, .i32⟩) main_v1 h1 h2 h3).ofBuf v = v := rfl
theorem toBuf_v4 (h1 h2 h3) (v : (⟨S1600000x128, .f32⟩ : BufTy).Contents (Elt F)) :
    (TRef.of (sig := sig) (T := ⟨S1600000x128, .f32⟩) main_v4 h1 h2 h3).toBuf v = v := rfl
theorem toBuf_v21 (h1 h2 h3) (v : (⟨S1600000x128, .f32⟩ : BufTy).Contents (Elt F)) :
    (TRef.of (sig := sig) (T := ⟨S1600000x128, .f32⟩) main_v21 h1 h2 h3).toBuf v = v := rfl

variable (X : Valuation τ sig (Elt F))

/-! ## The slicing stretch: the edge table's two rows -/

theorem src_stage : after hostOps0 X (Proc.devRef .tc main_v1) = Cert.ReferenceIdeal.Agg.src (X (Proc.devRef .tc main_arg1)) := by
  after_results <;> rfl

theorem dst_stage : after hostOps0 X (Proc.devRef .tc main_v3) = Cert.ReferenceIdeal.Agg.dst (X (Proc.devRef .tc main_arg1)) := by
  after_results <;> rfl

/-! ## The gather stretches: the guarded take -/

set_option maxHeartbeats 4000000 in
theorem take_stage0 : after hostOps0_1 X (Proc.devRef .tc main_v4)
    = Take.take (X (Proc.devRef .tc main_arg0)) (X (Proc.devRef .tc main_v1)) := by
  after_results_simp
  simp only [ofBuf_toBuf, ofBuf_arg0, ofBuf_v1, toBuf_v4]
  rfl

set_option maxHeartbeats 4000000 in
theorem take_stage1 : after hostOps1 X (Proc.devRef .tc main_v21)
    = Take.take (X (Proc.devRef .tc main_v20)) (X (Proc.devRef .tc main_v1)) := by
  after_results_simp
  simp only [ofBuf_toBuf, ofBuf_v20, ofBuf_v1, toBuf_v21]
  rfl

/-! ## The aggregation stretches: the mean, the transposed weights, the bias row -/

set_option maxHeartbeats 4000000 in
theorem mean_stage0 : after hostOps0_2 X (Proc.devRef .tc main_v16)
    = Cert.ReferenceIdeal.Agg.meanOfMsg (X (Proc.devRef .tc main_v4)) (X (Proc.devRef .tc main_v3)) := by
  after_results_simp; rfl

theorem wl_stage0 : after hostOps0_2 X (Proc.devRef .tc main_v17)
    = transpose S128x128 [1, 0] (X (Proc.devRef .tc main_arg3)) transposes_S128x128_S128x128_1_0 := by
  after_results <;> rfl

theorem b_stage0 : after hostOps0_2 X (Proc.devRef .tc main_v18)
    = shapeCast S1x128 (X (Proc.devRef .tc main_arg4)) shapeCasts_S128_S1x128 := by
  after_results <;> rfl

theorem wr_stage0 : after hostOps0_2 X (Proc.devRef .tc main_v19)
    = transpose S128x128 [1, 0] (X (Proc.devRef .tc main_arg5)) transposes_S128x128_S128x128_1_0 := by
  after_results <;> rfl

set_option maxHeartbeats 4000000 in
theorem mean_stage1 : after hostOps1_1 X (Proc.devRef .tc main_v33)
    = Cert.ReferenceIdeal.Agg.meanOfMsg (X (Proc.devRef .tc main_v21)) (X (Proc.devRef .tc main_v3)) := by
  after_results_simp; rfl

theorem wl_stage1 : after hostOps1_1 X (Proc.devRef .tc main_v34)
    = transpose S128x128 [1, 0] (X (Proc.devRef .tc main_arg6)) transposes_S128x128_S128x128_1_0 := by
  after_results <;> rfl

theorem b_stage1 : after hostOps1_1 X (Proc.devRef .tc main_v35)
    = shapeCast S1x128 (X (Proc.devRef .tc main_arg7)) shapeCasts_S128_S1x128 := by
  after_results <;> rfl

theorem wr_stage1 : after hostOps1_1 X (Proc.devRef .tc main_v36)
    = transpose S128x128 [1, 0] (X (Proc.devRef .tc main_arg8)) transposes_S128x128_S128x128_1_0 := by
  after_results <;> rfl

/-! ## The last stretch: the classifier's operands -/

theorem wc_stage : after hostOps2 X (Proc.devRef .tc main_v38)
    = transpose S128x40 [1, 0] (X (Proc.devRef .tc main_arg9)) transposes_S40x128_S128x40_1_0 := by
  after_results <;> rfl

theorem bc_stage : after hostOps2 X (Proc.devRef .tc main_v39)
    = shapeCast S1x40 (X (Proc.devRef .tc main_arg10)) shapeCasts_S40_S1x40 := by
  after_results <;> rfl

/-! ## What each stretch keeps -/

theorem keep0 (b : Ref sig .tc) (hb : b ∉ [main_v0, main_v1, main_v2, main_v3]) :
    after hostOps0 X (Proc.devRef .tc b) = X (Proc.devRef .tc b) :=
  after_of_writes_sub hostOps0 X (W := [main_v0, main_v1, main_v2, main_v3])
    (by simp only [hostOps0, List.Forall, StableHlo.unary_writes, StableHlo.reshape_writes, List.map, List.toFinset_cons, List.toFinset_nil]; decide) hb

end Cert.KernelIdeal.HostSide

end
-- ==== Proof.Spec.lean ====
/-
  The two dense layers of the network as functions of whole arrays, index by index, over the extended reals.

  A SAGE layer combines, for node `n` and output feature `j`, the mean of the neighbours' features and the node's
  own features through two weight matrices (given already transposed, so that the contracted axis is the first)
  and a bias row, and clips at zero:
      sage mean x wlT b wrT (n, j) = max (Σ_k mean(n,k)·wlT(k,j) + b(0,j) + Σ_k x(n,k)·wrT(k,j)) 0.
  The classifier is one such product and a bias row, without the clip:
      classify h wcT b (n, c) = Σ_k h(n,k)·wcT(k,c) + b(0,c).
  Sums and products are the extended reals' own; the association of the three summands is the one both programs use.
-/
import Idealize.ShloMosaic.PureOps.Ideal
import Idealize.ShloMosaic.Lib.ValueIdx

noncomputable section

namespace Cert.Spec

open Idealize.ShloMosaic Idealize.ShloMosaic.ValueIdx

/-- Node features [100000, 128]. -/
abbrev NF : Shape := ⟨2, ![100000, 128]⟩
/-- A transposed layer weight [128, 128]. -/
abbrev WW : Shape := ⟨2, ![128, 128]⟩
/-- A layer's bias as a row [1, 128]. -/
abbrev BR : Shape := ⟨2, ![1, 128]⟩
/-- The class scores [100000, 40]. -/
abbrev NC : Shape := ⟨2, ![100000, 40]⟩
/-- The transposed classifier weight [128, 40]. -/
abbrev WC : Shape := ⟨2, ![128, 40]⟩
/-- The classifier's bias as a row [1, 40]. -/
abbrev CR : Shape := ⟨2, ![1, 40]⟩

/-- One SAGE layer: the neighbour mean and the root features through their weights, the bias, the clip at zero. -/
def sage (mean x : FVec Ideal NF .f32) (wlT : FVec Ideal WW .f32) (b : FVec Ideal BR .f32) (wrT : FVec Ideal WW .f32) :
    FVec Ideal NF .f32 :=
  fun i => max ((∑ k : Fin 128, mean (ix2 (i 0) k) * wlT (ix2 k (i 1))) + b (ix2 0 (i 1))
    + ∑ k : Fin 128, x (ix2 (i 0) k) * wrT (ix2 k (i 1))) (Ideal.ofBits .f32 0x00000000#32)

/-- The classifier: one product and the bias row. -/
def classify (h : FVec Ideal NF .f32) (wcT : FVec Ideal WC .f32) (b : FVec Ideal CR .f32) : FVec Ideal NC .f32 :=
  fun i => (∑ k : Fin 128, h (ix2 (i 0) k) * wcT (ix2 k (i 1))) + b (ix2 0 (i 1))

end Cert.Spec

end
-- ==== Proof.KernelSage.lean ====
/-
  The two SAGE-layer regions of the kernel's program, each at ANY contents `V` of the buffers at the region's entry:
  after the region's 20 grid points (blocks of 5000 rows) the output array holds `Spec.sage` of the five input arrays.
-/
import proofs.«421759_j17703855194786_1_alg».proof.Proof.Gen.KernelIdeal.Frame
import proofs.«421759_j17703855194786_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The body's product of a block of rows with a weight matrix, read at an index -/

/-- The left operand's row coordinate is the output's row. -/
theorem lhs_rows_0 (i : S5000x128.Idx) (q : dot_S5000x128_S128x128_S5000x128_1_0_0_1_n_n.contr.Idx) :
    (dot_S5000x128_S128x128_S5000x128_1_0_0_1_n_n.lhsIdx i q 0).val = (i 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
/-- The left operand's column coordinate is the contracted index. -/
theorem lhs_rows_1 (i : S5000x128.Idx) (q : dot_S5000x128_S128x128_S5000x128_1_0_0_1_n_n.contr.Idx) :
    (dot_S5000x128_S128x128_S5000x128_1_0_0_1_n_n.lhsIdx i q 1).val = (q ⟨0, by decide⟩).val :=
  dot_S5000x128_S128x128_S5000x128_1_0_0_1_n_n.lhsIdx_val_of_single rfl i q
/-- The right operand's row coordinate is the contracted index. -/
theorem rhs_rows_0 (i : S5000x128.Idx) (q : dot_S5000x128_S128x128_S5000x128_1_0_0_1_n_n.contr.Idx) :
    (dot_S5000x128_S128x128_S5000x128_1_0_0_1_n_n.rhsIdx i q 0).val = (q ⟨0, by decide⟩).val :=
  dot_S5000x128_S128x128_S5000x128_1_0_0_1_n_n.rhsIdx_val_of_single rfl i q
/-- The right operand's column coordinate is the output's column. -/
theorem rhs_rows_1 (i : S5000x128.Idx) (q : dot_S5000x128_S128x128_S5000x128_1_0_0_1_n_n.contr.Idx) :
    (dot_S5000x128_S128x128_S5000x128_1_0_0_1_n_n.rhsIdx i q 1).val = (i 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-- A block of 5000 rows times a 128 × 128 matrix, accumulated into zero: at row `p` and column `q` the sum over
    the 128 contracted positions of the row's entries times the column's. -/
theorem rows_times_matrix_apply {φ₁ φ₂ : FTy} (a : FVec Ideal S5000x128 φ₁) (b : FVec Ideal S128x128 φ₂) (p : Fin 5000) (q : Fin 128) :
    matmul (F := Ideal) dot_S5000x128_S128x128_S5000x128_1_0_0_1_n_n none a b (constant (F := Ideal) S5000x128 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x128_S5000x128_1_0_0_1_n_n 128 rfl rfl).symm]
  refine Finset.sum_congr rfl fun k _ => ?_
  have hk := ValueIdx.contrEquiv1_symm_val dot_S5000x128_S128x128_S5000x128_1_0_0_1_n_n 128 rfl rfl k
  have el : dot_S5000x128_S128x128_S5000x128_1_0_0_1_n_n.lhsIdx (ix2 p q) ((ValueIdx.contrEquiv1 dot_S5000x128_S128x128_S5000x128_1_0_0_1_n_n 128 rfl rfl).symm k) = ix2 p k := funext fun x => Fin.ext (by
    match x with
    | ⟨0, _⟩ => exact lhs_rows_0 _ _
    | ⟨1, _⟩ => exact (lhs_rows_1 _ _).trans hk)
  have er : dot_S5000x128_S128x128_S5000x128_1_0_0_1_n_n.rhsIdx (ix2 p q) ((ValueIdx.contrEquiv1 dot_S5000x128_S128x128_S5000x128_1_0_0_1_n_n 128 rfl rfl).symm k) = ix2 k q := funext fun x => Fin.ext (by
    match x with
    | ⟨0, _⟩ => exact (rhs_rows_0 _ _).trans hk
    | ⟨1, _⟩ => exact rhs_rows_1 _ _)
  rw [el, er]

/-! ## The body's result at an index, from the five loaded blocks -/

/-- The first layer's body at row `p` of the block and column `q`: the two products, the bias, the clip at zero. -/
theorem body0_apply (v0 v3 : Vec Ideal S5000x128 .f32) (v5 v8 : Vec Ideal S128x128 .f32) (v13 : Vec Ideal S1x128 .f32)
    (p : Fin 5000) (q : Fin 128) :
    k0_pay1 (F := Ideal) v0 v3 v5 v8 v13 (ix2 p q)
      = max ((∑ k : Fin 128, v0 (ix2 p k) * v5 (ix2 k q)) + v13 (ix2 0 q) + ∑ k : Fin 128, v3 (ix2 p k) * v8 (ix2 k q))
          (Ideal.ofBits .f32 0x00000000#32) := by
  unfold k0_pay1
  rw [maximumf_apply, addf_apply, addf_apply, broadcast_apply, rows_times_matrix_apply, rows_times_matrix_apply,
    shapeCast_self, shapeCast_self, shapeCast_self, shapeCast_self, broadcastTo_1b_ab_apply]
  rfl

variable (V : (c : Dev nD) → (b : Ref sig .tc) → Buf (Elt Ideal) ((c : Thread nD τ).loc b))

/-! ## Region 0: from the blocks to the array -/

/-- The zero offsets of a whole-block access. -/
theorem zeros2 : (![0, 0] : Fin 2 → Nat) = fun _ => 0 := funext fun a => match a with | ⟨0, _⟩ => rfl | ⟨1, _⟩ => rfl

/-- The printed index maps over the grid: the two row-blocked inputs move with the output's block of rows, which
    is the point's number; every other block index is zero. -/
theorem block_indices0 : ∀ t : Fin cfg0.N, win0_5.index t (0 : Fin 2) = t.val ∧ win0_5.index t (1 : Fin 2) = 0
    ∧ win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- The neighbour means' block at a point: row `p` of it is row `n` of the array, `n` the block's first row plus `p`. -/
theorem mean_block0 (c : Dev nD) (t : Fin cfg0.N) (p : Fin 5000) (k : Fin 128) (n : Fin 100000)
    (hn : n.val = win0_5.index t (0 : Fin 2) * 5000 + 1 * p.val) :
    (iblk0 V c 0 t : Vec Ideal S5000x128 .f32) (ix2 p k) = (V c main_v16 : S100000x128.Idx → Elt Ideal .f32) (ix2 n k) := by
  obtain ⟨e0, e1, e2, e3, _⟩ := block_indices0 t
  unfold iblk0
  rw [View.read_apply]
  show V c main_v16 _ = V c main_v16 _
  congr 1
  funext a; apply Fin.ext
  match a with
  | ⟨0, _⟩ => show win0_0.index t (0 : Fin 2) * 5000 + 1 * p.val = n.val; omega
  | ⟨1, _⟩ => show win0_0.index t (1 : Fin 2) * 128 + 1 * k.val = k.val; omega

/-- The nodes' own features' block at a point, likewise. -/
theorem self_block0 (c : Dev nD) (t : Fin cfg0.N) (p : Fin 5000) (k : Fin 128) (n : Fin 100000)
    (hn : n.val = win0_5.index t (0 : Fin 2) * 5000 + 1 * p.val) :
    (iblk0 V c 1 t : Vec Ideal S5000x128 .f32) (ix2 p k) = (V c main_arg0 : S100000x128.Idx → Elt Ideal .f32) (ix2 n k) := by
  obtain ⟨e0, e1, e2, e3, e4, e5, _⟩ := block_indices0 t
  unfold iblk0
  rw [View.read_apply]
  show V c main_arg0 _ = V c main_arg0 _
  congr 1
  funext a; apply Fin.ext
  match a with
  | ⟨0, _⟩ => show win0_1.index t (0 : Fin 2) * 5000 + 1 * p.val = n.val; omega
  | ⟨1, _⟩ => show win0_1.index t (1 : Fin 2) * 128 + 1 * k.val = k.val; omega

/-- The first weight matrix's block at every point is the whole matrix. -/
theorem wl_block0 (c : Dev nD) (t : Fin cfg0.N) (k j : Fin 128) :
    (iblk0 V c 2 t : Vec Ideal S128x128 .f32) (ix2 k j) = (V c main_v17 : S128x128.Idx → Elt Ideal .f32) (ix2 k j) := by
  obtain ⟨e0, e1, e2, e3, e4, e5, e6, e7, _⟩ := block_indices0 t
  unfold iblk0
  rw [View.read_apply]
  show V c main_v17 _ = V c main_v17 _
  congr 1
  funext a; apply Fin.ext
  match a with
  | ⟨0, _⟩ => show win0_2.index t (0 : Fin 2) * 128 + 1 * k.val = k.val; omega
  | ⟨1, _⟩ => show win0_2.index t (1 : Fin 2) * 128 + 1 * j.val = j.val; omega

/-- The bias row's block at every point is the whole row. -/
theorem bias_block0 (c : Dev nD) (t : Fin cfg0.N) (j : Fin 128) :
    (iblk0 V c 3 t : Vec Ideal S1x128 .f32) (ix2 0 j) = (V c main_v18 : S1x128.Idx → Elt Ideal .f32) (ix2 0 j) := by
  obtain ⟨e0, e1, e2, e3, e4, e5, e6, e7, e8, e9, _⟩ := block_indices0 t
  unfold iblk0
  rw [View.read_apply]
  show V c main_v18 _ = V c main_v18 _
  congr 1
  funext a; apply Fin.ext
  match a with
  | ⟨0, _⟩ => show win0_3.index t (0 : Fin 2) * 1 + 1 * 0 = 0; omega
  | ⟨1, _⟩ => show win0_3.index t (1 : Fin 2) * 128 + 1 * j.val = j.val; omega

/-- The second weight matrix's block at every point is the whole matrix. -/
theorem wr_block0 (c : Dev nD) (t : Fin cfg0.N) (k j : Fin 128) :
    (iblk0 V c 4 t : Vec Ideal S128x128 .f32) (ix2 k j) = (V c main_v19 : S128x128.Idx → Elt Ideal .f32) (ix2 k j) := by
  obtain ⟨e0, e1, e2, e3, e4, e5, e6, e7, e8, e9, e10, e11⟩ := block_indices0 t
  unfold iblk0
  rw [View.read_apply]
  show V c main_v19 _ = V c main_v19 _
  congr 1
  funext a; apply Fin.ext
  match a with
  | ⟨0, _⟩ => show win0_4.index t (0 : Fin 2) * 128 + 1 * k.val = k.val; omega
  | ⟨1, _⟩ => show win0_4.index t (1 : Fin 2) * 128 + 1 * j.val = j.val; omega

/-- What a point writes back is its block of rows of the layer's result on the arrays as the region finds them. -/
theorem flushed0_eq (c : Dev nD) (t : Fin cfg0.N) :
    (dat0 (F := Ideal) V c).flushed 5 t = ((cfg0.win 5).blk t).view.read (Elt Ideal)
      (Cert.Spec.sage (V c main_v16) (V c main_arg0) (V c main_v17) (V c main_v18) (V c main_v19)) := by
  show (cfg0.win 5).cut (grid0.coords t) ((dat0 V c).after 5 t) = _
  rw [after0_5]
  unfold out0_5
  rw [View.canon_unit_zero zeros2]
  simp only [View.ld_unit_zero (S := S5000x128) zeros2, View.ld_unit_zero (S := S128x128) zeros2, View.ld_unit_zero (S := S1x128) zeros2]
  funext y
  obtain ⟨p, q, rfl⟩ : ∃ (p : Fin 5000) (q : Fin 128), y = ix2 p q := ⟨y 0, y 1, eq_ix2 y⟩
  obtain ⟨_, e1, _⟩ := block_indices0 t
  refine (body0_apply (iblk0 V c 0 t) (iblk0 V c 1 t) (iblk0 V c 2 t) (iblk0 V c 4 t) (iblk0 V c 3 t) p q).trans ?_
  rw [View.read_apply]
  show _ = Cert.Spec.sage (V c main_v16) (V c main_arg0) (V c main_v17) (V c main_v18) (V c main_v19) (((cfg0.win 5).blk t).view.emb (ix2 p q))
  have hq : (((cfg0.win 5).blk t).view.emb (ix2 p q) 1 : Fin 128) = q :=
    Fin.ext (show win0_5.index t (1 : Fin 2) * 128 + 1 * q.val = q.val by omega)
  unfold Cert.Spec.sage
  rw [hq]
  refine congrArg₂ max (congrArg₂ (· + ·) (congrArg₂ (· + ·) (Finset.sum_congr rfl fun k _ => ?_) ?_) (Finset.sum_congr rfl fun k _ => ?_)) rfl
  · exact congrArg₂ (· * ·) (mean_block0 V c t p k _ rfl) (wl_block0 V c t k q)
  · exact bias_block0 V c t q
  · exact congrArg₂ (· * ·) (self_block0 V c t p k _ rfl) (wr_block0 V c t k q)

/-- A row of the output array is in a point's block iff it lies in the block's range of rows (and columns). -/
theorem mem_block0 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole main_v20).slice (win0_5.rect t)).set ↔ _
  rw [View.set_slice_whole, Rect.mem_set_unit]
  exact Iff.rfl

/-- Every index of the output array is in the block of the point numbered by its row divided by 5000. -/
theorem cover0 (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  have hN : cfg0.N = 20 := N_0
  have ht : (i 0).val / 5000 < cfg0.N := by rw [hN]; omega
  obtain ⟨e0, e1, _⟩ := block_indices0 ⟨(i 0).val / 5000, ht⟩
  have e0' : win0_5.index ⟨(i 0).val / 5000, ht⟩ (0 : Fin 2) = (i 0).val / 5000 := e0
  refine ⟨⟨(i 0).val / 5000, ht⟩, flush0_5 _, ?_⟩
  rw [mem_block0]
  intro a
  match a with
  | ⟨0, _⟩ =>
    show win0_5.index ⟨(i 0).val / 5000, ht⟩ (0 : Fin 2) * 5000 ≤ (i 0).val ∧ (i 0).val < win0_5.index ⟨(i 0).val / 5000, ht⟩ (0 : Fin 2) * 5000 + 5000
    omega
  | ⟨1, _⟩ =>
    show win0_5.index ⟨(i 0).val / 5000, ht⟩ (1 : Fin 2) * 128 ≤ (i 1).val ∧ (i 1).val < win0_5.index ⟨(i 0).val / 5000, ht⟩ (1 : Fin 2) * 128 + 128
    omega

/-! ## Region 1: the same layer on the second set of arrays -/

/-- The second layer's body at row `p` of the block and column `q`: the two products, the bias, the clip at zero. -/
theorem body1_apply (v0 v3 : Vec Ideal S5000x128 .f32) (v6 v9 : Vec Ideal S128x128 .f32) (v14 : Vec Ideal S1x128 .f32)
    (p : Fin 5000) (q : Fin 128) :
    k1_pay1 (F := Ideal) v0 v3 v6 v9 v14 (ix2 p q)
      = max ((∑ k : Fin 128, v0 (ix2 p k) * v6 (ix2 k q)) + v14 (ix2 0 q) + ∑ k : Fin 128, v3 (ix2 p k) * v9 (ix2 k q))
          (Ideal.ofBits .f32 0x00000000#32) := by
  unfold k1_pay1
  rw [maximumf_apply, addf_apply, addf_apply, broadcast_apply, rows_times_matrix_apply, rows_times_matrix_apply,
    shapeCast_self, shapeCast_self, shapeCast_self, shapeCast_self, shapeCast_self, broadcastTo_1b_ab_apply]
  rfl

/-- The printed index maps over the second grid: as in the first region. -/
theorem block_indices1 : ∀ t : Fin cfg1.N, win1_5.index t (0 : Fin 2) = t.val ∧ win1_5.index t (1 : Fin 2) = 0
    ∧ win1_0.index t (0 : Fin 2) = win1_5.index t (0 : Fin 2) ∧ win1_0.index t (1 : Fin 2) = 0
    ∧ win1_1.index t (0 : Fin 2) = win1_5.index t (0 : Fin 2) ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- The neighbour means' block at a point: row `p` of it is row `n` of the array, `n` the block's first row plus `p`. -/
theorem mean_block1 (c : Dev nD) (t : Fin cfg1.N) (p : Fin 5000) (k : Fin 128) (n : Fin 100000)
    (hn : n.val = win1_5.index t (0 : Fin 2) * 5000 + 1 * p.val) :
    (iblk1 V c 0 t : Vec Ideal S5000x128 .f32) (ix2 p k) = (V c main_v33 : S100000x128.Idx → Elt Ideal .f32) (ix2 n k) := by
  obtain ⟨e0, e1, e2, e3, _⟩ := block_indices1 t
  unfold iblk1
  rw [View.read_apply]
  show V c main_v33 _ = V c main_v33 _
  congr 1
  funext a; apply Fin.ext
  match a with
  | ⟨0, _⟩ => show win1_0.index t (0 : Fin 2) * 5000 + 1 * p.val = n.val; omega
  | ⟨1, _⟩ => show win1_0.index t (1 : Fin 2) * 128 + 1 * k.val = k.val; omega

/-- The nodes' own features' block at a point (here the first layer's output), likewise. -/
theorem self_block1 (c : Dev nD) (t : Fin cfg1.N) (p : Fin 5000) (k : Fin 128) (n : Fin 100000)
    (hn : n.val = win1_5.index t (0 : Fin 2) * 5000 + 1 * p.val) :
    (iblk1 V c 1 t : Vec Ideal S5000x128 .f32) (ix2 p k) = (V c main_v20 : S100000x128.Idx → Elt Ideal .f32) (ix2 n k) := by
  obtain ⟨e0, e1, e2, e3, e4, e5, _⟩ := block_indices1 t
  unfold iblk1
  rw [View.read_apply]
  show V c main_v20 _ = V c main_v20 _
  congr 1
  funext a; apply Fin.ext
  match a with
  | ⟨0, _⟩ => show win1_1.index t (0 : Fin 2) * 5000 + 1 * p.val = n.val; omega
  | ⟨1, _⟩ => show win1_1.index t (1 : Fin 2) * 128 + 1 * k.val = k.val; omega

/-- The first weight matrix's block at every point is the whole matrix. -/
theorem wl_block1 (c : Dev nD) (t : Fin cfg1.N) (k j : Fin 128) :
    (iblk1 V c 2 t : Vec Ideal S128x128 .f32) (ix2 k j) = (V c main_v34 : S128x128.Idx → Elt Ideal .f32) (ix2 k j) := by
  obtain ⟨e0, e1, e2, e3, e4, e5, e6, e7, _⟩ := block_indices1 t
  unfold iblk1
  rw [View.read_apply]
  show V c main_v34 _ = V c main_v34 _
  congr 1
  funext a; apply Fin.ext
  match a with
  | ⟨0, _⟩ => show win1_2.index t (0 : Fin 2) * 128 + 1 * k.val = k.val; omega
  | ⟨1, _⟩ => show win1_2.index t (1 : Fin 2) * 128 + 1 * j.val = j.val; omega

/-- The bias row's block at every point is the whole row. -/
theorem bias_block1 (c : Dev nD) (t : Fin cfg1.N) (j : Fin 128) :
    (iblk1 V c 3 t : Vec Ideal S1x128 .f32) (ix2 0 j) = (V c main_v35 : S1x128.Idx → Elt Ideal .f32) (ix2 0 j) := by
  obtain ⟨e0, e1, e2, e3, e4, e5, e6, e7, e8, e9, _⟩ := block_indices1 t
  unfold iblk1
  rw [View.read_apply]
  show V c main_v35 _ = V c main_v35 _
  congr 1
  funext a; apply Fin.ext
  match a with
  | ⟨0, _⟩ => show win1_3.index t (0 : Fin 2) * 1 + 1 * 0 = 0; omega
  | ⟨1, _⟩ => show win1_3.index t (1 : Fin 2) * 128 + 1 * j.val = j.val; omega

/-- The second weight matrix's block at every point is the whole matrix. -/
theorem wr_block1 (c : Dev nD) (t : Fin cfg1.N) (k j : Fin 128) :
    (iblk1 V c 4 t : Vec Ideal S128x128 .f32) (ix2 k j) = (V c main_v36 : S128x128.Idx → Elt Ideal .f32) (ix2 k j) := by
  obtain ⟨e0, e1, e2, e3, e4, e5, e6, e7, e8, e9, e10, e11⟩ := block_indices1 t
  unfold iblk1
  rw [View.read_apply]
  show V c main_v36 _ = V c main_v36 _
  congr 1
  funext a; apply Fin.ext
  match a with
  | ⟨0, _⟩ => show win1_4.index t (0 : Fin 2) * 128 + 1 * k.val = k.val; omega
  | ⟨1, _⟩ => show win1_4.index t (1 : Fin 2) * 128 + 1 * j.val = j.val; omega

/-- What a point writes back is its block of rows of the layer's result on the arrays as the region finds them. -/
theorem flushed1_eq (c : Dev nD) (t : Fin cfg1.N) :
    (dat1 (F := Ideal) V c).flushed 5 t = ((cfg1.win 5).blk t).view.read (Elt Ideal)
      (Cert.Spec.sage (V c main_v33) (V c main_v20) (V c main_v34) (V c main_v35) (V c main_v36)) := by
  show (cfg1.win 5).cut (grid1.coords t) ((dat1 V c).after 5 t) = _
  rw [after1_5]
  unfold out1_5
  rw [View.canon_unit_zero zeros2]
  simp only [View.ld_unit_zero (S := S5000x128) zeros2, View.ld_unit_zero (S := S128x128) zeros2, View.ld_unit_zero (S := S1x128) zeros2]
  funext y
  obtain ⟨p, q, rfl⟩ : ∃ (p : Fin 5000) (q : Fin 128), y = ix2 p q := ⟨y 0, y 1, eq_ix2 y⟩
  obtain ⟨_, e1, _⟩ := block_indices1 t
  refine (body1_apply (iblk1 V c 0 t) (iblk1 V c 1 t) (iblk1 V c 2 t) (iblk1 V c 4 t) (iblk1 V c 3 t) p q).trans ?_
  rw [View.read_apply]
  show _ = Cert.Spec.sage (V c main_v33) (V c main_v20) (V c main_v34) (V c main_v35) (V c main_v36) (((cfg1.win 5).blk t).view.emb (ix2 p q))
  have hq : (((cfg1.win 5).blk t).view.emb (ix2 p q) 1 : Fin 128) = q :=
    Fin.ext (show win1_5.index t (1 : Fin 2) * 128 + 1 * q.val = q.val by omega)
  unfold Cert.Spec.sage
  rw [hq]
  refine congrArg₂ max (congrArg₂ (· + ·) (congrArg₂ (· + ·) (Finset.sum_congr rfl fun k _ => ?_) ?_) (Finset.sum_congr rfl fun k _ => ?_)) rfl
  · exact congrArg₂ (· * ·) (mean_block1 V c t p k _ rfl) (wl_block1 V c t k q)
  · exact bias_block1 V c t q
  · exact congrArg₂ (· * ·) (self_block1 V c t p k _ rfl) (wr_block1 V c t k q)

/-- A row of the output array is in a point's block iff it lies in the block's range of rows (and columns). -/
theorem mem_block1 (t : Fin cfg1.N) (i : S100000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v37).slice (win1_5.rect t)).set ↔ _
  rw [View.set_slice_whole, Rect.mem_set_unit]
  exact Iff.rfl

/-- Every index of the output array is in the block of the point numbered by its row divided by 5000. -/
theorem cover1 (i : S100000x128.Idx) :
    ∃ t : Fin cfg1.N, (cfg1.win 5).flush t = true ∧ i ∈ ((cfg1.win 5).blk t).view.set := by
  have hi0 : (i 0).val < 100000 := (i 0).isLt
  have hi1 : (i 1).val < 128 := (i 1).isLt
  have hN : cfg1.N = 20 := N_1
  have ht : (i 0).val / 5000 < cfg1.N := by rw [hN]; omega
  obtain ⟨e0, e1, _⟩ := block_indices1 ⟨(i 0).val / 5000, ht⟩
  have e0' : win1_5.index ⟨(i 0).val / 5000, ht⟩ (0 : Fin 2) = (i 0).val / 5000 := e0
  refine ⟨⟨(i 0).val / 5000, ht⟩, flush1_5 _, ?_⟩
  rw [mem_block1]
  intro a
  match a with
  | ⟨0, _⟩ =>
    show win1_5.index ⟨(i 0).val / 5000, ht⟩ (0 : Fin 2) * 5000 ≤ (i 0).val ∧ (i 0).val < win1_5.index ⟨(i 0).val / 5000, ht⟩ (0 : Fin 2) * 5000 + 5000
    omega
  | ⟨1, _⟩ =>
    show win1_5.index ⟨(i 0).val / 5000, ht⟩ (1 : Fin 2) * 128 ≤ (i 1).val ∧ (i 1).val < win1_5.index ⟨(i 0).val / 5000, ht⟩ (1 : Fin 2) * 128 + 128
    omega

/-- Region 0 (the first layer): the output array after the run. -/
theorem final0 (c : Dev nD) : (dat0 (F := Ideal) V c).arrAt 5 cfg0.N
    = Cert.Spec.sage (V c main_v16) (V c main_arg0) (V c main_v17) (V c main_v18) (V c main_v19) :=
  (dat0 (F := Ideal) V c).arrAt_eq_of_cover 5 _ (fun t _ => flushed0_eq V c t) cover0

/-- Region 1 (the second layer): the output array after the run. -/
theorem final1 (c : Dev nD) : (dat1 (F := Ideal) V c).arrAt 5 cfg1.N
    = Cert.Spec.sage (V c main_v33) (V c main_v20) (V c main_v34) (V c main_v35) (V c main_v36) :=
  (dat1 (F := Ideal) V c).arrAt_eq_of_cover 5 _ (fun t _ => flushed1_eq V c t) cover1

end Cert.KernelIdeal.Regions

end
-- ==== Proof.KernelClassify.lean ====
/-
  The classifier region of the kernel's program, at ANY contents `V` of the buffers at the region's entry:
  after the region's 20 grid points (blocks of 5000 rows) the output array holds `Spec.classify` of the three input arrays.
-/
import proofs.«421759_j17703855194786_1_alg».proof.Proof.Gen.KernelIdeal.Frame
import proofs.«421759_j17703855194786_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Regions

open Cert.KernelIdeal Cert.KernelIdeal.Gen
open Idealize.ShloMosaic Idealize.ShloMosaic.TcCoe Idealize.SL.Sem
open Idealize.ShloMosaic.Pipeline (Dat Cfg Window)
open Idealize.ShloMosaic.ValueIdx

/-! ## The body's arithmetic at an index

The body multiplies its block of 5000 rows of `h` by the whole `wcT` (one contraction over the 128 features, into a zero
accumulator) and adds the bias row to every row of the product. -/

/-- The product's left operand is read at the output's row … -/
theorem lhs_classify_0 (i : S5000x40.Idx) (q : dot_S5000x128_S128x40_S5000x40_1_0_0_1_n_n.contr.Idx) :
    (dot_S5000x128_S128x40_S5000x40_1_0_0_1_n_n.lhsIdx i q 0).val = (i 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
/-- … and the contracted feature; … -/
theorem lhs_classify_1 (i : S5000x40.Idx) (q : dot_S5000x128_S128x40_S5000x40_1_0_0_1_n_n.contr.Idx) :
    (dot_S5000x128_S128x40_S5000x40_1_0_0_1_n_n.lhsIdx i q 1).val = (q ⟨0, by decide⟩).val :=
  dot_S5000x128_S128x40_S5000x40_1_0_0_1_n_n.lhsIdx_val_of_single rfl i q
/-- … the right operand at the contracted feature … -/
theorem rhs_classify_0 (i : S5000x40.Idx) (q : dot_S5000x128_S128x40_S5000x40_1_0_0_1_n_n.contr.Idx) :
    (dot_S5000x128_S128x40_S5000x40_1_0_0_1_n_n.rhsIdx i q 0).val = (q ⟨0, by decide⟩).val :=
  dot_S5000x128_S128x40_S5000x40_1_0_0_1_n_n.rhsIdx_val_of_single rfl i q
/-- … and the output's column. -/
theorem rhs_classify_1 (i : S5000x40.Idx) (q : dot_S5000x128_S128x40_S5000x40_1_0_0_1_n_n.contr.Idx) :
    (dot_S5000x128_S128x40_S5000x40_1_0_0_1_n_n.rhsIdx i q 1).val = (i 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-- The product into the zero accumulator, read at row `p` and class `q`: the sum over the 128 features. -/
theorem classify_matmul_apply (a : FVec Ideal S5000x128 .bf16) (b : FVec Ideal S128x40 .bf16) (p : Fin 5000) (q : Fin 40) :
    matmul dot_S5000x128_S128x40_S5000x40_1_0_0_1_n_n none a b (constant (F := Ideal) S5000x40 .f32 0x00000000#32) (ix2 p q)
      = ∑ k : Fin 128, a (ix2 p k) * b (ix2 k q) := by
  simp only [matmul]
  rw [Ideal.matmul_constant_zero_apply, ← Equiv.sum_comp (ValueIdx.contrEquiv1 dot_S5000x128_S128x40_S5000x40_1_0_0_1_n_n 128 rfl rfl).symm]
  refine Finset.sum_congr rfl fun k _ => ?_
  have hk := ValueIdx.contrEquiv1_symm_val dot_S5000x128_S128x40_S5000x40_1_0_0_1_n_n 128 rfl rfl k
  have el : dot_S5000x128_S128x40_S5000x40_1_0_0_1_n_n.lhsIdx (ix2 p q) ((ValueIdx.contrEquiv1 dot_S5000x128_S128x40_S5000x40_1_0_0_1_n_n 128 rfl rfl).symm k) = ix2 p k := funext fun a => Fin.ext (by
    match a with
    | ⟨0, _⟩ => exact lhs_classify_0 _ _
    | ⟨1, _⟩ => exact (lhs_classify_1 _ _).trans hk)
  have er : dot_S5000x128_S128x40_S5000x40_1_0_0_1_n_n.rhsIdx (ix2 p q) ((ValueIdx.contrEquiv1 dot_S5000x128_S128x40_S5000x40_1_0_0_1_n_n 128 rfl rfl).symm k) = ix2 k q := funext fun a => Fin.ext (by
    match a with
    | ⟨0, _⟩ => exact (rhs_classify_0 _ _).trans hk
    | ⟨1, _⟩ => exact rhs_classify_1 _ _)
  rw [el, er]

/-- THE BODY'S RESULT at row `p` and class `q` of its block: the product of the loaded rows with the weights plus the bias. -/
theorem classify_pay_apply (v0 : Vec Ideal S5000x128 .f32) (v3 : Vec Ideal S128x40 .f32) (v7 : Vec Ideal S1x40 .f32)
    (p : Fin 5000) (q : Fin 40) :
    k2_pay1 (F := Ideal) v0 v3 v7 (ix2 p q) = (∑ k : Fin 128, v0 (ix2 p k) * v3 (ix2 k q)) + v7 (ix2 0 q) := by
  unfold k2_pay1
  rw [addf_apply, classify_matmul_apply, broadcastTo_1b_ab_apply, shapeCast_self v0, shapeCast_self v3, shapeCast_self v7]
  refine congrArg (· + v7 (ix2 0 q)) (Finset.sum_congr rfl fun k _ => ?_)
  rw [truncf_apply, truncf_apply]

/-! ## From the blocks to the array

At point `t` of the 20 the rows' window and the output's window are at block `t` (rows `5000·t … 5000·t + 4999`), the weights'
and the bias row's windows at their whole arrays; so what point `t` writes back is block `t` of `Spec.classify` of the three
arrays, and the 20 blocks fill the output. -/

variable (V : (c : Dev nD) → (b : Ref sig .tc) → Buf (Elt Ideal) ((c : Thread nD τ).loc b))

/-- The body's accesses start at the origin of their buffers. -/
theorem zero_offsets : (![0, 0] : Fin 2 → Nat) = fun _ => 0 := funext fun a => by fin_cases a <;> rfl

/-- What the body leaves in the output's buffer, at row `p` and class `q`, from the contents of the three input buffers. -/
theorem classify_out_apply (x0 : Vec Ideal S5000x128 .f32) (x1 : Vec Ideal S128x40 .f32) (x2 : Vec Ideal S1x40 .f32)
    (p : Fin 5000) (q : Fin 40) :
    out2_3 (F := Ideal) x0 x1 x2 (ix2 p q) = (∑ k : Fin 128, x0 (ix2 p k) * x1 (ix2 k q)) + x2 (ix2 0 q) := by
  unfold out2_3
  rw [View.canon_unit_zero zero_offsets]
  simp only [View.ld_unit_zero (S := S5000x128) zero_offsets, View.ld_unit_zero (S := S128x40) zero_offsets,
    View.ld_unit_zero (S := S1x40) zero_offsets]
  exact classify_pay_apply x0 x1 x2 p q

/-- The printed index maps, decided over the 20 points: the rows' and the output's windows are at row block `t`, column
    block 0; the weights' and the bias row's stay at block 0. -/
theorem classify_idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The rows' block at point `t`, at row `p` and feature `k`: the array at row `5000·t + p`. -/
theorem rows_blk_apply (c : Dev nD) (t : Fin cfg2.N) (p : Fin 5000) (k : Fin 128) (r : Fin 100000)
    (hr : r.val = t.val * 5000 + p.val) :
    iblk2 V c 0 t (ix2 p k) = V c main_v37 (ix2 r k) := by
  obtain ⟨e0, e1, -⟩ := classify_idx_facts t
  show V c main_v37 (((cfg2.win 0).blk t).view.emb (ix2 p k)) = V c main_v37 (ix2 r k)
  refine congrArg (V c main_v37) (funext fun a => Fin.ext ?_)
  match a with
  | ⟨0, _⟩ => show win2_0.index t (0 : Fin 2) * 5000 + 1 * p.val = r.val; omega
  | ⟨1, _⟩ => show win2_0.index t (1 : Fin 2) * 128 + 1 * k.val = k.val; omega

/-- The weights' block at any point is the whole array. -/
theorem weights_blk_apply (c : Dev nD) (t : Fin cfg2.N) (k : Fin 128) (q : Fin 40) (s : Fin 40) (hs : s.val = q.val) :
    iblk2 V c 1 t (ix2 k q) = V c main_v38 (ix2 k s) := by
  obtain ⟨-, -, e2, e3, -⟩ := classify_idx_facts t
  show V c main_v38 (((cfg2.win 1).blk t).view.emb (ix2 k q)) = V c main_v38 (ix2 k s)
  refine congrArg (V c main_v38) (funext fun a => Fin.ext ?_)
  match a with
  | ⟨0, _⟩ => show win2_1.index t (0 : Fin 2) * 128 + 1 * k.val = k.val; omega
  | ⟨1, _⟩ => show win2_1.index t (1 : Fin 2) * 40 + 1 * q.val = s.val; omega

/-- The bias row's block at any point is the whole row. -/
theorem bias_blk_apply (c : Dev nD) (t : Fin cfg2.N) (q : Fin 40) (s : Fin 40) (hs : s.val = q.val) :
    iblk2 V c 2 t (ix2 0 q) = V c main_v39 (ix2 0 s) := by
  obtain ⟨-, -, -, -, e4, e5, -⟩ := classify_idx_facts t
  show V c main_v39 (((cfg2.win 2).blk t).view.emb (ix2 0 q)) = V c main_v39 (ix2 0 s)
  refine congrArg (V c main_v39) (funext fun a => Fin.ext ?_)
  match a with
  | ⟨0, _⟩ => show win2_2.index t (0 : Fin 2) * 1 + 1 * 0 = 0; omega
  | ⟨1, _⟩ => show win2_2.index t (1 : Fin 2) * 40 + 1 * q.val = s.val; omega

/-- WHAT POINT `t` WRITES BACK is block `t` of `Spec.classify` of the three arrays as the region finds them. -/
theorem classify_flushed_eq (c : Dev nD) (t : Fin cfg2.N) :
    (dat2 (F := Ideal) V c).flushed 3 t
      = ((cfg2.win 3).blk t).view.read (Elt Ideal) (Cert.Spec.classify (V c main_v37) (V c main_v38) (V c main_v39)) := by
  show (cfg2.win 3).cut (grid2.coords t) ((dat2 V c).after 3 t) = _
  rw [after2_3]
  refine funext fun (y : S5000x40.Idx) => ?_
  obtain ⟨p, q, rfl⟩ : ∃ (p : Fin 5000) (q : Fin 40), y = ix2 p q := ⟨y 0, y 1, eq_ix2 y⟩
  obtain ⟨-, -, -, -, -, -, e6, e7⟩ := classify_idx_facts t
  have hrow : ((((cfg2.win 3).blk t).view.emb (ix2 p q)) 0).val = t.val * 5000 + p.val := by
    show win2_3.index t (0 : Fin 2) * 5000 + 1 * p.val = _; omega
  have hcol : ((((cfg2.win 3).blk t).view.emb (ix2 p q)) 1).val = q.val := by
    show win2_3.index t (1 : Fin 2) * 40 + 1 * q.val = _; omega
  show out2_3 (iblk2 V c 0 t) (iblk2 V c 1 t) (iblk2 V c 2 t) (ix2 p q)
    = Cert.Spec.classify (V c main_v37) (V c main_v38) (V c main_v39) (((cfg2.win 3).blk t).view.emb (ix2 p q))
  refine (classify_out_apply _ _ _ p q).trans ?_
  unfold Cert.Spec.classify
  refine congrArg₂ (· + ·) (Finset.sum_congr rfl fun k _ => ?_) ?_
  · exact congrArg₂ (· * ·) (rows_blk_apply V c t p k _ hrow) (weights_blk_apply V c t k q _ hcol)
  · exact bias_blk_apply V c t q _ hcol

/-- An index of the output array is in point `t`'s block iff each coordinate is in the block's range on its axis. -/
theorem classify_mem_blk (t : Fin cfg2.N) (i : S100000x40.Idx) :
    i ∈ ((cfg2.win 3).blk t).view.set ↔ ∀ a : Fin 2, win2_3.index t a * S5000x40.size a ≤ (i a).val
      ∧ (i a).val < win2_3.index t a * S5000x40.size a + S5000x40.size a := by
  show i ∈ ((View.whole main_v40).slice (win2_3.rect t)).set ↔ _
  rw [View.set_slice_whole, Rect.mem_set_unit]
  exact Iff.rfl

/-- THE BLOCKS FILL THE OUTPUT: row `r` is in the block of point `r / 5000`. -/
theorem classify_cover (i : S100000x40.Idx) :
    ∃ t : Fin cfg2.N, (cfg2.win 3).flush t = true ∧ i ∈ ((cfg2.win 3).blk t).view.set := by
  have hi0 : (i 0).val < 100000 := (i 0).isLt
  have hi1 : (i 1).val < 40 := (i 1).isLt
  have hN : (i 0).val / 5000 < grid2.N := by rw [N_2]; omega
  obtain ⟨t, ht⟩ : ∃ t : Fin cfg2.N, t.val = (i 0).val / 5000 := ⟨⟨(i 0).val / 5000, hN⟩, rfl⟩
  obtain ⟨-, -, -, -, -, -, e6, e7⟩ := classify_idx_facts t
  refine ⟨t, flush2_3 t, ?_⟩
  rw [classify_mem_blk]
  intro a
  match a with
  | ⟨0, _⟩ =>
    show win2_3.index t (0 : Fin 2) * 5000 ≤ (i 0).val ∧ (i 0).val < win2_3.index t (0 : Fin 2) * 5000 + 5000
    omega
  | ⟨1, _⟩ =>
    show win2_3.index t (1 : Fin 2) * 40 ≤ (i 1).val ∧ (i 1).val < win2_3.index t (1 : Fin 2) * 40 + 40
    omega

/-- Region 2 (the classifier): the output array after the run. -/
theorem final2 (c : Dev nD) : (dat2 (F := Ideal) V c).arrAt 3 cfg2.N
    = Cert.Spec.classify (V c main_v37) (V c main_v38) (V c main_v39) :=
  (dat2 V c).arrAt_eq_of_cover 3 _ (fun t _ => classify_flushed_eq V c t) classify_cover

end Cert.KernelIdeal.Regions

end
-- ==== Proof.KernelValue.lean ====
/-
  The kernel's program as ONE function of its arguments. Walking the program's boundaries from the launch: the
  first region is entered with the neighbour mean of the input features (the guarded take being the plain gather
  when every source index is in range), the features themselves, the first layer's weights transposed and its bias
  as a row, and leaves the first layer's result; the second region is entered with the mean of that result, the
  result, and the second layer's operands, and leaves the second layer's result; the last region is entered with
  that and the classifier's operands, and leaves the class scores.
-/
import proofs.«421759_j17703855194786_1_alg».proof.Proof.Gen.KernelIdeal.Frame
import proofs.«421759_j17703855194786_1_alg».proof.Proof.KernelHost
import proofs.«421759_j17703855194786_1_alg».proof.Proof.KernelSage
import proofs.«421759_j17703855194786_1_alg».proof.Proof.KernelClassify

set_option maxRecDepth 16384

noncomputable section

namespace Cert.KernelIdeal.Whole

open Cert.KernelIdeal Cert.KernelIdeal.Gen Cert.KernelIdeal.HostSide
open Idealize.ShloMosaic Idealize.ShloMosaic.TcCoe Idealize.SL.Sem Idealize.ShloMosaic.StableHlo
open Cert.ReferenceIdeal (Agg.mean Agg.src Agg.dst Agg.meanOfMsg)

variable (m : (ℓ : Loc nD τ sig) → Buf (Elt Ideal) ℓ) (ρ : Dev nD → PrngReg) (c : Dev nD)

/-- An argument array as launched. -/
abbrev arg (b : Ref sig .tc) : Buf (Elt Ideal) ((c : Thread nD τ).loc b) := m ((c : Thread nD τ).loc b)

/-- The two layers' functions respect equal operands. -/
theorem sage_congr {a a' x x' : FVec Ideal Cert.Spec.NF .f32} {wl wl' wr wr' : FVec Ideal Cert.Spec.WW .f32}
    {b b' : FVec Ideal Cert.Spec.BR .f32} (ha : a = a') (hx : x = x') (hwl : wl = wl') (hb : b = b') (hwr : wr = wr') :
    Cert.Spec.sage a x wl b wr = Cert.Spec.sage a' x' wl' b' wr' := by subst ha hx hwl hb hwr; rfl

theorem classify_congr {h h' : FVec Ideal Cert.Spec.NF .f32} {w w' : FVec Ideal Cert.Spec.WC .f32}
    {b b' : FVec Ideal Cert.Spec.CR .f32} (hh : h = h') (hw : w = w') (hb : b = b') :
    Cert.Spec.classify h w b = Cert.Spec.classify h' w' b' := by subst hh hw hb; rfl

/-- The first layer's result, of the arguments. -/
def feat1 : FVec Ideal S100000x128 .f32 :=
  Cert.Spec.sage (Agg.mean (arg m c main_arg0) (arg m c main_arg1)) (arg m c main_arg0)
    (transpose S128x128 [1, 0] (arg m c main_arg3) transposes_S128x128_S128x128_1_0)
    (shapeCast S1x128 (arg m c main_arg4) shapeCasts_S128_S1x128)
    (transpose S128x128 [1, 0] (arg m c main_arg5) transposes_S128x128_S128x128_1_0)

/-- The second layer's result, of the arguments. -/
def feat2 : FVec Ideal S100000x128 .f32 :=
  Cert.Spec.sage (Agg.mean (feat1 m c) (arg m c main_arg1)) (feat1 m c)
    (transpose S128x128 [1, 0] (arg m c main_arg6) transposes_S128x128_S128x128_1_0)
    (shapeCast S1x128 (arg m c main_arg7) shapeCasts_S128_S1x128)
    (transpose S128x128 [1, 0] (arg m c main_arg8) transposes_S128x128_S128x128_1_0)

/-- The class scores, of the arguments. -/
def scores : FVec Ideal S100000x40 .f32 :=
  Cert.Spec.classify (feat2 m c)
    (transpose S128x40 [1, 0] (arg m c main_arg9) transposes_S40x128_S128x40_1_0)
    (shapeCast S1x40 (arg m c main_arg10) shapeCasts_S40_S1x40)

/-- Every source index in range, as the kernel's guard reads it. -/
def SrcOk : Prop :=
  ∀ e, IntOp.cmpi .sge (Agg.src (arg m c main_arg1) e) 0#32 = 1#1 ∧ IntOp.cmpi .slt (Agg.src (arg m c main_arg1) e) 100000#32 = 1#1

/-! ## After the slicing stretch -/

theorem w1_v1 : W1 m ρ c (Proc.devRef .tc main_v1) = Agg.src (arg m c main_arg1) := src_stage (W0 m ρ c)
theorem w1_v3 : W1 m ρ c (Proc.devRef .tc main_v3) = Agg.dst (arg m c main_arg1) := dst_stage (W0 m ρ c)
theorem w1_arg0 : W1 m ρ c (Proc.devRef .tc main_arg0) = arg m c main_arg0 := by host_keep hostOps0
theorem w1_arg3 : W1 m ρ c (Proc.devRef .tc main_arg3) = arg m c main_arg3 := by host_keep hostOps0
theorem w1_arg4 : W1 m ρ c (Proc.devRef .tc main_arg4) = arg m c main_arg4 := by host_keep hostOps0
theorem w1_arg5 : W1 m ρ c (Proc.devRef .tc main_arg5) = arg m c main_arg5 := by host_keep hostOps0
theorem w1_arg6 : W1 m ρ c (Proc.devRef .tc main_arg6) = arg m c main_arg6 := by host_keep hostOps0
theorem w1_arg7 : W1 m ρ c (Proc.devRef .tc main_arg7) = arg m c main_arg7 := by host_keep hostOps0
theorem w1_arg8 : W1 m ρ c (Proc.devRef .tc main_arg8) = arg m c main_arg8 := by host_keep hostOps0
theorem w1_arg9 : W1 m ρ c (Proc.devRef .tc main_arg9) = arg m c main_arg9 := by host_keep hostOps0
theorem w1_arg10 : W1 m ρ c (Proc.devRef .tc main_arg10) = arg m c main_arg10 := by host_keep hostOps0

/-! ## After the first gather stretch -/

theorem w2_v4 : W2 m ρ c (Proc.devRef .tc main_v4) = Take.take (F := Ideal) (arg m c main_arg0) (Agg.src (arg m c main_arg1)) :=
  (take_stage0 (W1 m ρ c)).trans (by rw [w1_arg0, w1_v1])
theorem w2_v1 : W2 m ρ c (Proc.devRef .tc main_v1) = Agg.src (arg m c main_arg1) :=
  (by host_keep hostOps0_1 : W2 m ρ c (Proc.devRef .tc main_v1) = W1 m ρ c (Proc.devRef .tc main_v1)).trans (w1_v1 m ρ c)
theorem w2_v3 : W2 m ρ c (Proc.devRef .tc main_v3) = Agg.dst (arg m c main_arg1) :=
  (by host_keep hostOps0_1 : W2 m ρ c (Proc.devRef .tc main_v3) = W1 m ρ c (Proc.devRef .tc main_v3)).trans (w1_v3 m ρ c)
theorem w2_arg0 : W2 m ρ c (Proc.devRef .tc main_arg0) = arg m c main_arg0 :=
  (by host_keep hostOps0_1 : W2 m ρ c (Proc.devRef .tc main_arg0) = W1 m ρ c (Proc.devRef .tc main_arg0)).trans (w1_arg0 m ρ c)
theorem w2_arg3 : W2 m ρ c (Proc.devRef .tc main_arg3) = arg m c main_arg3 :=
  (by host_keep hostOps0_1 : W2 m ρ c (Proc.devRef .tc main_arg3) = W1 m ρ c (Proc.devRef .tc main_arg3)).trans (w1_arg3 m ρ c)
theorem w2_arg4 : W2 m ρ c (Proc.devRef .tc main_arg4) = arg m c main_arg4 :=
  (by host_keep hostOps0_1 : W2 m ρ c (Proc.devRef .tc main_arg4) = W1 m ρ c (Proc.devRef .tc main_arg4)).trans (w1_arg4 m ρ c)
theorem w2_arg5 : W2 m ρ c (Proc.devRef .tc main_arg5) = arg m c main_arg5 :=
  (by host_keep hostOps0_1 : W2 m ρ c (Proc.devRef .tc main_arg5) = W1 m ρ c (Proc.devRef .tc main_arg5)).trans (w1_arg5 m ρ c)
theorem w2_arg6 : W2 m ρ c (Proc.devRef .tc main_arg6) = arg m c main_arg6 :=
  (by host_keep hostOps0_1 : W2 m ρ c (Proc.devRef .tc main_arg6) = W1 m ρ c (Proc.devRef .tc main_arg6)).trans (w1_arg6 m ρ c)
theorem w2_arg7 : W2 m ρ c (Proc.devRef .tc main_arg7) = arg m c main_arg7 :=
  (by host_keep hostOps0_1 : W2 m ρ c (Proc.devRef .tc main_arg7) = W1 m ρ c (Proc.devRef .tc main_arg7)).trans (w1_arg7 m ρ c)
theorem w2_arg8 : W2 m ρ c (Proc.devRef .tc main_arg8) = arg m c main_arg8 :=
  (by host_keep hostOps0_1 : W2 m ρ c (Proc.devRef .tc main_arg8) = W1 m ρ c (Proc.devRef .tc main_arg8)).trans (w1_arg8 m ρ c)
theorem w2_arg9 : W2 m ρ c (Proc.devRef .tc main_arg9) = arg m c main_arg9 :=
  (by host_keep hostOps0_1 : W2 m ρ c (Proc.devRef .tc main_arg9) = W1 m ρ c (Proc.devRef .tc main_arg9)).trans (w1_arg9 m ρ c)
theorem w2_arg10 : W2 m ρ c (Proc.devRef .tc main_arg10) = arg m c main_arg10 :=
  (by host_keep hostOps0_1 : W2 m ρ c (Proc.devRef .tc main_arg10) = W1 m ρ c (Proc.devRef .tc main_arg10)).trans (w1_arg10 m ρ c)

/-! ## At the first region's entry -/

theorem e0_mean (hs : SrcOk m c) : V3 m ρ c main_v16 = Agg.mean (F := Ideal) (arg m c main_arg0) (arg m c main_arg1) :=
  (mean_stage0 (W2 m ρ c)).trans (by
    rw [w2_v4, w2_v3, Take.take_eq_gather _ _ hs]; rfl)
theorem e0_x : V3 m ρ c main_arg0 = arg m c main_arg0 :=
  (by host_keep hostOps0_2 : W3 m ρ c (Proc.devRef .tc main_arg0) = W2 m ρ c (Proc.devRef .tc main_arg0)).trans (w2_arg0 m ρ c)
theorem e0_wl : V3 m ρ c main_v17 = transpose S128x128 [1, 0] (arg m c main_arg3) transposes_S128x128_S128x128_1_0 :=
  (wl_stage0 (W2 m ρ c)).trans (by rw [w2_arg3])
theorem e0_b : V3 m ρ c main_v18 = shapeCast S1x128 (arg m c main_arg4) shapeCasts_S128_S1x128 :=
  (b_stage0 (W2 m ρ c)).trans (by rw [w2_arg4])
theorem e0_wr : V3 m ρ c main_v19 = transpose S128x128 [1, 0] (arg m c main_arg5) transposes_S128x128_S128x128_1_0 :=
  (wr_stage0 (W2 m ρ c)).trans (by rw [w2_arg5])

theorem w3_v1 : W3 m ρ c (Proc.devRef .tc main_v1) = Agg.src (arg m c main_arg1) :=
  (by host_keep hostOps0_2 : W3 m ρ c (Proc.devRef .tc main_v1) = W2 m ρ c (Proc.devRef .tc main_v1)).trans (w2_v1 m ρ c)
theorem w3_v3 : W3 m ρ c (Proc.devRef .tc main_v3) = Agg.dst (arg m c main_arg1) :=
  (by host_keep hostOps0_2 : W3 m ρ c (Proc.devRef .tc main_v3) = W2 m ρ c (Proc.devRef .tc main_v3)).trans (w2_v3 m ρ c)
theorem w3_arg6 : W3 m ρ c (Proc.devRef .tc main_arg6) = arg m c main_arg6 :=
  (by host_keep hostOps0_2 : W3 m ρ c (Proc.devRef .tc main_arg6) = W2 m ρ c (Proc.devRef .tc main_arg6)).trans (w2_arg6 m ρ c)
theorem w3_arg7 : W3 m ρ c (Proc.devRef .tc main_arg7) = arg m c main_arg7 :=
  (by host_keep hostOps0_2 : W3 m ρ c (Proc.devRef .tc main_arg7) = W2 m ρ c (Proc.devRef .tc main_arg7)).trans (w2_arg7 m ρ c)
theorem w3_arg8 : W3 m ρ c (Proc.devRef .tc main_arg8) = arg m c main_arg8 :=
  (by host_keep hostOps0_2 : W3 m ρ c (Proc.devRef .tc main_arg8) = W2 m ρ c (Proc.devRef .tc main_arg8)).trans (w2_arg8 m ρ c)
theorem w3_arg9 : W3 m ρ c (Proc.devRef .tc main_arg9) = arg m c main_arg9 :=
  (by host_keep hostOps0_2 : W3 m ρ c (Proc.devRef .tc main_arg9) = W2 m ρ c (Proc.devRef .tc main_arg9)).trans (w2_arg9 m ρ c)
theorem w3_arg10 : W3 m ρ c (Proc.devRef .tc main_arg10) = arg m c main_arg10 :=
  (by host_keep hostOps0_2 : W3 m ρ c (Proc.devRef .tc main_arg10) = W2 m ρ c (Proc.devRef .tc main_arg10)).trans (w2_arg10 m ρ c)

/-! ## At the first region's exit -/

theorem w4_v20 (hs : SrcOk m c) : W4 m ρ c (Proc.devRef .tc main_v20) = feat1 m c :=
  (W4_arr m ρ c 5).trans ((Regions.final0 (V3 m ρ) c).trans
    (sage_congr (e0_mean m ρ c hs) (e0_x m ρ c) (e0_wl m ρ c) (e0_b m ρ c) (e0_wr m ρ c)))
theorem w4_v1 : W4 m ρ c (Proc.devRef .tc main_v1) = Agg.src (arg m c main_arg1) :=
  (W4_of_ne m ρ c main_v1 (by decide)).trans (w3_v1 m ρ c)
theorem w4_v3 : W4 m ρ c (Proc.devRef .tc main_v3) = Agg.dst (arg m c main_arg1) :=
  (W4_of_ne m ρ c main_v3 (by decide)).trans (w3_v3 m ρ c)
theorem w4_arg6 : W4 m ρ c (Proc.devRef .tc main_arg6) = arg m c main_arg6 := (W4_of_ne m ρ c main_arg6 (by decide)).trans (w3_arg6 m ρ c)
theorem w4_arg7 : W4 m ρ c (Proc.devRef .tc main_arg7) = arg m c main_arg7 := (W4_of_ne m ρ c main_arg7 (by decide)).trans (w3_arg7 m ρ c)
theorem w4_arg8 : W4 m ρ c (Proc.devRef .tc main_arg8) = arg m c main_arg8 := (W4_of_ne m ρ c main_arg8 (by decide)).trans (w3_arg8 m ρ c)
theorem w4_arg9 : W4 m ρ c (Proc.devRef .tc main_arg9) = arg m c main_arg9 := (W4_of_ne m ρ c main_arg9 (by decide)).trans (w3_arg9 m ρ c)
theorem w4_arg10 : W4 m ρ c (Proc.devRef .tc main_arg10) = arg m c main_arg10 := (W4_of_ne m ρ c main_arg10 (by decide)).trans (w3_arg10 m ρ c)

/-! ## After the second gather stretch -/

theorem w5_v21 (hs : SrcOk m c) : W5 m ρ c (Proc.devRef .tc main_v21) = Take.take (F := Ideal) (feat1 m c) (Agg.src (arg m c main_arg1)) :=
  (take_stage1 (W4 m ρ c)).trans (by rw [w4_v20 m ρ c hs, w4_v1])
theorem w5_v20 (hs : SrcOk m c) : W5 m ρ c (Proc.devRef .tc main_v20) = feat1 m c :=
  (by host_keep hostOps1 : W5 m ρ c (Proc.devRef .tc main_v20) = W4 m ρ c (Proc.devRef .tc main_v20)).trans (w4_v20 m ρ c hs)
theorem w5_v3 : W5 m ρ c (Proc.devRef .tc main_v3) = Agg.dst (arg m c main_arg1) :=
  (by host_keep hostOps1 : W5 m ρ c (Proc.devRef .tc main_v3) = W4 m ρ c (Proc.devRef .tc main_v3)).trans (w4_v3 m ρ c)
theorem w5_arg6 : W5 m ρ c (Proc.devRef .tc main_arg6) = arg m c main_arg6 :=
  (by host_keep hostOps1 : W5 m ρ c (Proc.devRef .tc main_arg6) = W4 m ρ c (Proc.devRef .tc main_arg6)).trans (w4_arg6 m ρ c)
theorem w5_arg7 : W5 m ρ c (Proc.devRef .tc main_arg7) = arg m c main_arg7 :=
  (by host_keep hostOps1 : W5 m ρ c (Proc.devRef .tc main_arg7) = W4 m ρ c (Proc.devRef .tc main_arg7)).trans (w4_arg7 m ρ c)
theorem w5_arg8 : W5 m ρ c (Proc.devRef .tc main_arg8) = arg m c main_arg8 :=
  (by host_keep hostOps1 : W5 m ρ c (Proc.devRef .tc main_arg8) = W4 m ρ c (Proc.devRef .tc main_arg8)).trans (w4_arg8 m ρ c)
theorem w5_arg9 : W5 m ρ c (Proc.devRef .tc main_arg9) = arg m c main_arg9 :=
  (by host_keep hostOps1 : W5 m ρ c (Proc.devRef .tc main_arg9) = W4 m ρ c (Proc.devRef .tc main_arg9)).trans (w4_arg9 m ρ c)
theorem w5_arg10 : W5 m ρ c (Proc.devRef .tc main_arg10) = arg m c main_arg10 :=
  (by host_keep hostOps1 : W5 m ρ c (Proc.devRef .tc main_arg10) = W4 m ρ c (Proc.devRef .tc main_arg10)).trans (w4_arg10 m ρ c)

/-! ## At the second region's entry -/

theorem e1_mean (hs : SrcOk m c) : V6 m ρ c main_v33 = Agg.mean (F := Ideal) (feat1 m c) (arg m c main_arg1) :=
  (mean_stage1 (W5 m ρ c)).trans (by
    rw [w5_v21 m ρ c hs, w5_v3, Take.take_eq_gather _ _ hs]; rfl)
theorem e1_x (hs : SrcOk m c) : V6 m ρ c main_v20 = feat1 m c :=
  (by host_keep hostOps1_1 : W6 m ρ c (Proc.devRef .tc main_v20) = W5 m ρ c (Proc.devRef .tc main_v20)).trans (w5_v20 m ρ c hs)
theorem e1_wl : V6 m ρ c main_v34 = transpose S128x128 [1, 0] (arg m c main_arg6) transposes_S128x128_S128x128_1_0 :=
  (wl_stage1 (W5 m ρ c)).trans (by rw [w5_arg6])
theorem e1_b : V6 m ρ c main_v35 = shapeCast S1x128 (arg m c main_arg7) shapeCasts_S128_S1x128 :=
  (b_stage1 (W5 m ρ c)).trans (by rw [w5_arg7])
theorem e1_wr : V6 m ρ c main_v36 = transpose S128x128 [1, 0] (arg m c main_arg8) transposes_S128x128_S128x128_1_0 :=
  (wr_stage1 (W5 m ρ c)).trans (by rw [w5_arg8])
theorem w6_arg9 : W6 m ρ c (Proc.devRef .tc main_arg9) = arg m c main_arg9 :=
  (by host_keep hostOps1_1 : W6 m ρ c (Proc.devRef .tc main_arg9) = W5 m ρ c (Proc.devRef .tc main_arg9)).trans (w5_arg9 m ρ c)
theorem w6_arg10 : W6 m ρ c (Proc.devRef .tc main_arg10) = arg m c main_arg10 :=
  (by host_keep hostOps1_1 : W6 m ρ c (Proc.devRef .tc main_arg10) = W5 m ρ c (Proc.devRef .tc main_arg10)).trans (w5_arg10 m ρ c)

/-! ## At the second region's exit, and the last region's entry -/

theorem w7_v37 (hs : SrcOk m c) : W7 m ρ c (Proc.devRef .tc main_v37) = feat2 m c :=
  (W7_arr m ρ c 5).trans ((Regions.final1 (V6 m ρ) c).trans
    (sage_congr (e1_mean m ρ c hs) (e1_x m ρ c hs) (e1_wl m ρ c) (e1_b m ρ c) (e1_wr m ρ c)))
theorem w7_arg9 : W7 m ρ c (Proc.devRef .tc main_arg9) = arg m c main_arg9 := (W7_of_ne m ρ c main_arg9 (by decide)).trans (w6_arg9 m ρ c)
theorem w7_arg10 : W7 m ρ c (Proc.devRef .tc main_arg10) = arg m c main_arg10 := (W7_of_ne m ρ c main_arg10 (by decide)).trans (w6_arg10 m ρ c)

theorem e2_h (hs : SrcOk m c) : V8 m ρ c main_v37 = feat2 m c :=
  (by host_keep hostOps2 : W8 m ρ c (Proc.devRef .tc main_v37) = W7 m ρ c (Proc.devRef .tc main_v37)).trans (w7_v37 m ρ c hs)
theorem e2_w : V8 m ρ c main_v38 = transpose S128x40 [1, 0] (arg m c main_arg9) transposes_S40x128_S128x40_1_0 :=
  (wc_stage (W7 m ρ c)).trans (by rw [w7_arg9])
theorem e2_b : V8 m ρ c main_v39 = shapeCast S1x40 (arg m c main_arg10) shapeCasts_S40_S1x40 :=
  (bc_stage (W7 m ρ c)).trans (by rw [w7_arg10])

/-! ## The result -/

/-- At the run's last boundary the result buffer holds the class scores of the arguments. -/
theorem result_eq (hs : SrcOk m c) : W9 m ρ c (Proc.devRef .tc main_v40) = scores m c :=
  (W9_arr m ρ c 3).trans ((Regions.final2 (V8 m ρ) c).trans
    (classify_congr (e2_h m ρ c hs) (e2_w m ρ c) (e2_b m ρ c)))

end Cert.KernelIdeal.Whole

end
-- ==== Proof.RefValue.lean ====
/-
  The reference's stages as the layers of `Cert.Spec`: each SAGE layer's result is `Spec.sage` of the neighbour
  mean (`Agg.mean`) and the layer's input, the class scores are `Spec.classify` of the second layer's result.
-/
import proofs.«421759_j17703855194786_1_alg».proof.Proof.Gen.ReferenceIdeal.Read
import proofs.«421759_j17703855194786_1_alg».proof.Proof.Spec
import proofs.«421759_j17703855194786_1_alg».proof.Proof.Aggregate

noncomputable section

namespace Cert.ReferenceIdeal.RefValue

open Cert.ReferenceIdeal Cert.ReferenceIdeal.Gen Cert.ReferenceIdeal.Read Idealize.ShloMosaic

variable {F : FTy → Type} [FloatOps F]

/-- The first layer's neighbour mean is the mean of the input features. -/
theorem mean1 (x0 : FVec F S100000x128 .f32) (x1 : IVec S2x1600000 32) : val_main_v22 (F := F) x0 x1 = Agg.mean x0 x1 := rfl

/-- The second layer's neighbour mean is the mean of the first layer's result. -/
theorem mean2 (x0 : FVec F S100000x128 .f32) (x1 : IVec S2x1600000 32) (x3 : FVec F S128x128 .f32) (x4 : FVec F S128 .f32) (x5 : FVec F S128x128 .f32) :
    val_main_v50 (F := F) x0 x1 x3 x4 x5 = Agg.mean (val_main_v31 (F := F) x0 x1 x3 x4 x5) x1 := rfl

/-! ### The index functions of the stages, by coordinates

  A product stage reads its left operand at (row of the output index, contracted position) and its right operand
  at (contracted position, column of the output index); a bias row is read at (0, column). -/

/-- Row `i 0` of the left operand, at the contracted position `k`. -/
private theorem rowAt {m n : Nat} (i : (⟨2, ![m, n]⟩ : Shape).Idx) (k : Fin 128)
    (f : (⟨2, ![m, 128]⟩ : Shape).Idx)
    (h0 : (f 0).val = (i 0).val) (h1 : (f 1).val = k.val) : f = ValueIdx.ix2 (i 0) k :=
  funext fun a => Fin.ext (by match a with | ⟨0, _⟩ => exact h0 | ⟨1, _⟩ => exact h1)

/-- Column `i 1` of the right operand, at the contracted position `k`. -/
private theorem colAt {m n : Nat} (i : (⟨2, ![m, n]⟩ : Shape).Idx) (k : Fin 128)
    (f : (⟨2, ![128, n]⟩ : Shape).Idx)
    (h0 : (f 0).val = k.val) (h1 : (f 1).val = (i 1).val) : f = ValueIdx.ix2 k (i 1) :=
  funext fun a => Fin.ext (by match a with | ⟨0, _⟩ => exact h0 | ⟨1, _⟩ => exact h1)

/-- Column `i 1` of a bias row. -/
private theorem biasAt {m n : Nat} (i : (⟨2, ![m, n]⟩ : Shape).Idx)
    (f : (⟨2, ![1, n]⟩ : Shape).Idx)
    (h0 : (f 0).val = 0) (h1 : (f 1).val = (i 1).val) : f = ValueIdx.ix2 (0 : Fin 1) (i 1) :=
  funext fun a => Fin.ext (by match a with | ⟨0, _⟩ => exact h0 | ⟨1, _⟩ => exact h1)

/-- The first layer. -/
theorem layer1 (x0 : FVec Ideal S100000x128 .f32) (x1 : IVec S2x1600000 32) (x3 : FVec Ideal S128x128 .f32) (x4 : FVec Ideal S128 .f32) (x5 : FVec Ideal S128x128 .f32) :
    val_main_v31 (F := Ideal) x0 x1 x3 x4 x5
      = Cert.Spec.sage (Agg.mean x0 x1) x0 (val_main_v23 (F := Ideal) x3) (val_main_v25 (F := Ideal) x4) (val_main_v28 (F := Ideal) x5) := by
  funext i
  -- the stage at an index: the clip of (mean product + bias) + root product
  rw [val_main_v31_apply, val_main_v30_apply, val_main_v27_apply, val_main_v24_apply, val_main_v26_apply,
    val_main_v29_apply, val_main_call0_v0_apply, val_main_call0_cst_apply, mean1]
  generalize Agg.mean x0 x1 = mn
  generalize val_main_v23 (F := Ideal) x3 = wl
  generalize val_main_v25 (F := Ideal) x4 = b
  generalize val_main_v28 (F := Ideal) x5 = wr
  have hl : ∀ k : Fin 128, lidx_main_v24 i k = ValueIdx.ix2 (i 0) k := fun k => rowAt i k _ rfl rfl
  have hr : ∀ k : Fin 128, ridx_main_v24 i k = ValueIdx.ix2 k (i 1) := fun k => colAt i k _ rfl rfl
  have hl' : ∀ k : Fin 128, lidx_main_v29 i k = ValueIdx.ix2 (i 0) k := fun k => rowAt i k _ rfl rfl
  have hr' : ∀ k : Fin 128, ridx_main_v29 i k = ValueIdx.ix2 k (i 1) := fun k => colAt i k _ rfl rfl
  have hb : idx_main_v26 i = ValueIdx.ix2 (0 : Fin 1) (i 1) := biasAt i _ rfl rfl
  simp only [hl, hr, hl', hr', hb]
  rfl

/-- The second layer. -/
theorem layer2 (x0 : FVec Ideal S100000x128 .f32) (x1 : IVec S2x1600000 32) (x3 : FVec Ideal S128x128 .f32) (x4 : FVec Ideal S128 .f32) (x5 x6 : FVec Ideal S128x128 .f32) (x7 : FVec Ideal S128 .f32) (x8 : FVec Ideal S128x128 .f32) :
    val_main_v59 (F := Ideal) x0 x1 x3 x4 x5 x6 x7 x8
      = Cert.Spec.sage (Agg.mean (val_main_v31 (F := Ideal) x0 x1 x3 x4 x5) x1) (val_main_v31 (F := Ideal) x0 x1 x3 x4 x5) (val_main_v51 (F := Ideal) x6) (val_main_v53 (F := Ideal) x7) (val_main_v56 (F := Ideal) x8) := by
  funext i
  -- the same reading as the first layer, its input being the first layer's result
  rw [val_main_v59_apply, val_main_v58_apply, val_main_v55_apply, val_main_v52_apply, val_main_v54_apply,
    val_main_v57_apply, val_main_call1_v0_apply, val_main_call1_cst_apply, mean2]
  generalize Agg.mean (F := Ideal) (val_main_v31 (F := Ideal) x0 x1 x3 x4 x5) x1 = mn
  generalize val_main_v31 (F := Ideal) x0 x1 x3 x4 x5 = h
  generalize val_main_v51 (F := Ideal) x6 = wl
  generalize val_main_v53 (F := Ideal) x7 = b
  generalize val_main_v56 (F := Ideal) x8 = wr
  have hl : ∀ k : Fin 128, lidx_main_v52 i k = ValueIdx.ix2 (i 0) k := fun k => rowAt i k _ rfl rfl
  have hr : ∀ k : Fin 128, ridx_main_v52 i k = ValueIdx.ix2 k (i 1) := fun k => colAt i k _ rfl rfl
  have hl' : ∀ k : Fin 128, lidx_main_v57 i k = ValueIdx.ix2 (i 0) k := fun k => rowAt i k _ rfl rfl
  have hr' : ∀ k : Fin 128, ridx_main_v57 i k = ValueIdx.ix2 k (i 1) := fun k => colAt i k _ rfl rfl
  have hb : idx_main_v54 i = ValueIdx.ix2 (0 : Fin 1) (i 1) := biasAt i _ rfl rfl
  simp only [hl, hr, hl', hr', hb]
  rfl

/-- The class scores. -/
theorem scores (x0 : FVec Ideal S100000x128 .f32) (x1 : IVec S2x1600000 32) (x3 : FVec Ideal S128x128 .f32) (x4 : FVec Ideal S128 .f32) (x5 x6 : FVec Ideal S128x128 .f32) (x7 : FVec Ideal S128 .f32) (x8 : FVec Ideal S128x128 .f32) (x9 : FVec Ideal S40x128 .f32) (x10 : FVec Ideal S40 .f32) :
    val_main_v64 (F := Ideal) x0 x1 x3 x4 x5 x6 x7 x8 x9 x10
      = Cert.Spec.classify (val_main_v59 (F := Ideal) x0 x1 x3 x4 x5 x6 x7 x8) (val_main_v60 (F := Ideal) x9) (val_main_v62 (F := Ideal) x10) := by
  funext i
  -- the stage at an index: one product and the bias row
  rw [val_main_v64_apply, val_main_v61_apply, val_main_v63_apply]
  generalize val_main_v59 (F := Ideal) x0 x1 x3 x4 x5 x6 x7 x8 = h
  generalize val_main_v60 (F := Ideal) x9 = wc
  generalize val_main_v62 (F := Ideal) x10 = b
  have hl : ∀ k : Fin 128, lidx_main_v61 i k = ValueIdx.ix2 (i 0) k := fun k => rowAt i k _ rfl rfl
  have hr : ∀ k : Fin 128, ridx_main_v61 i k = ValueIdx.ix2 k (i 1) := fun k => colAt i k _ rfl rfl
  have hb : idx_main_v63 i = ValueIdx.ix2 (0 : Fin 1) (i 1) := biasAt i _ rfl rfl
  simp only [hl, hr, hb]
  rfl

end Cert.ReferenceIdeal.RefValue

end
-- ==== Proof.RefWhole.lean ====
/-
  The reference's result as the same function of the arguments the kernel's program computes: the class scores of
  the second layer's result, the layers' weights transposed and their biases as rows. A bias the reference lays out as
  a row by a broadcast is the bias reshaped to a row: both read the vector at the column.
-/
import proofs.«421759_j17703855194786_1_alg».proof.Proof.RefValue
import Idealize.ShloMosaic.Lib.ValueLayout
import Idealize.ShloMosaic.Lib.Pipeline.Value

noncomputable section

namespace Cert.ReferenceIdeal.RefValue

open Cert.ReferenceIdeal Cert.ReferenceIdeal.Gen Cert.ReferenceIdeal.Read Idealize.ShloMosaic Idealize.ShloMosaic.ValueIdx

/-- A vector of 128 laid out as a [1, 128] row by a broadcast is the vector reshaped to that row. -/
theorem row128_eq {α : Type} (x : S128.Idx → α) (hs : S128.ShapeCasts S1x128) :
    broadcastInDim S1x128 ![1] bcast_S128_S1x128_1 x = shapeCast S1x128 x hs := by
  funext j
  obtain ⟨u, i, rfl⟩ : ∃ (u : Fin 1) (i : Fin 128), j = ix2 u i := ⟨j 0, j 1, eq_ix2 j⟩
  rw [shapeCast_a_1a_apply]
  exact broadcastInDim_apply ![1] bcast_S128_S1x128_1 x (ix2 u i) (ix1 i) (fun d => by
    match d with
    | ⟨0, _⟩ => show i.val = if (128 : ℕ) = 1 then 0 else i.val; rw [if_neg (by decide)])

/-- A vector of 40 laid out as a [1, 40] row by a broadcast is the vector reshaped to that row. -/
theorem row40_eq {α : Type} (x : S40.Idx → α) (hs : S40.ShapeCasts S1x40) :
    broadcastInDim S1x40 ![1] bcast_S40_S1x40_1 x = shapeCast S1x40 x hs := by
  funext j
  obtain ⟨u, i, rfl⟩ : ∃ (u : Fin 1) (i : Fin 40), j = ix2 u i := ⟨j 0, j 1, eq_ix2 j⟩
  rw [shapeCast_a_1a_apply]
  exact broadcastInDim_apply ![1] bcast_S40_S1x40_1 x (ix2 u i) (ix1 i) (fun d => by
    match d with
    | ⟨0, _⟩ => show i.val = if (40 : ℕ) = 1 then 0 else i.val; rw [if_neg (by decide)])

/-- The first layer's result, of the arguments. -/
def feat1 (x0 : FVec Ideal S100000x128 .f32) (x1 : IVec S2x1600000 32) (x3 : FVec Ideal S128x128 .f32) (x4 : FVec Ideal S128 .f32)
    (x5 : FVec Ideal S128x128 .f32) : FVec Ideal S100000x128 .f32 :=
  Cert.Spec.sage (Agg.mean x0 x1) x0 (transpose S128x128 [1, 0] x3 transposes_S128x128_S128x128_1_0)
    (shapeCast S1x128 x4 (by decide)) (transpose S128x128 [1, 0] x5 transposes_S128x128_S128x128_1_0)

/-- The second layer's result, of the arguments. -/
def feat2 (x0 : FVec Ideal S100000x128 .f32) (x1 : IVec S2x1600000 32) (x3 : FVec Ideal S128x128 .f32) (x4 : FVec Ideal S128 .f32)
    (x5 x6 : FVec Ideal S128x128 .f32) (x7 : FVec Ideal S128 .f32) (x8 : FVec Ideal S128x128 .f32) : FVec Ideal S100000x128 .f32 :=
  Cert.Spec.sage (Agg.mean (feat1 x0 x1 x3 x4 x5) x1) (feat1 x0 x1 x3 x4 x5)
    (transpose S128x128 [1, 0] x6 transposes_S128x128_S128x128_1_0)
    (shapeCast S1x128 x7 (by decide)) (transpose S128x128 [1, 0] x8 transposes_S128x128_S128x128_1_0)

/-- The first layer's stage is `feat1`. -/
theorem stage31_eq (x0 : FVec Ideal S100000x128 .f32) (x1 : IVec S2x1600000 32) (x3 : FVec Ideal S128x128 .f32) (x4 : FVec Ideal S128 .f32)
    (x5 : FVec Ideal S128x128 .f32) : val_main_v31 (F := Ideal) x0 x1 x3 x4 x5 = feat1 x0 x1 x3 x4 x5 := by
  rw [layer1]
  unfold feat1 val_main_v23 val_main_v25 val_main_v28
  rw [row128_eq x4 (by decide)]

/-- The second layer's stage is `feat2`. -/
theorem stage59_eq (x0 : FVec Ideal S100000x128 .f32) (x1 : IVec S2x1600000 32) (x3 : FVec Ideal S128x128 .f32) (x4 : FVec Ideal S128 .f32)
    (x5 x6 : FVec Ideal S128x128 .f32) (x7 : FVec Ideal S128 .f32) (x8 : FVec Ideal S128x128 .f32) :
    val_main_v59 (F := Ideal) x0 x1 x3 x4 x5 x6 x7 x8 = feat2 x0 x1 x3 x4 x5 x6 x7 x8 := by
  rw [layer2, stage31_eq]
  unfold feat2 val_main_v51 val_main_v53 val_main_v56
  rw [row128_eq x7 (by decide)]

/-- The reference's result is the class scores of `feat2`. -/
theorem result_eq (x0 : FVec Ideal S100000x128 .f32) (x1 : IVec S2x1600000 32) (x3 : FVec Ideal S128x128 .f32) (x4 : FVec Ideal S128 .f32)
    (x5 x6 : FVec Ideal S128x128 .f32) (x7 : FVec Ideal S128 .f32) (x8 : FVec Ideal S128x128 .f32) (x9 : FVec Ideal S40x128 .f32)
    (x10 : FVec Ideal S40 .f32) :
    val_main_v64 (F := Ideal) x0 x1 x3 x4 x5 x6 x7 x8 x9 x10
      = Cert.Spec.classify (feat2 x0 x1 x3 x4 x5 x6 x7 x8) (transpose S128x40 [1, 0] x9 transposes_S40x128_S128x40_1_0)
          (shapeCast S1x40 x10 (by decide)) := by
  rw [scores, stage59_eq]
  unfold val_main_v60 val_main_v62
  rw [row40_eq x10 (by decide)]

end Cert.ReferenceIdeal.RefValue

end
-- ==== Proof.lean ====
/-
  A two-layer GraphSAGE network with a linear classifier on 100000 nodes and 1600000 edges, as a kernel program and
  as its reference, equal over the extended reals.

  Both programs aggregate on the host: the feature rows at the edges' source nodes are summed per destination node
  and divided by the in-degree (at least one). They differ there in one thing: the kernel's program gathers with a
  guarded take that fills a row whose (once wrapped) source index is outside the node axis, where the reference's plain
  gather clamps the index. The precondition says every source index lies in [0, 100000); then the guard always holds
  and the two gathers are one (Proof/SrcRange.lean, Proof/TakeInRange.lean, Proof/Aggregate.lean).

  Each layer is  max (mean · W_lᵀ + b + x · W_rᵀ) 0  and the classifier  h · W_cᵀ + b_c  (Proof/Spec.lean). The
  kernel's program computes each of the three in a region of 20 grid points over blocks of 5000 node rows, the products
  taken on operands rounded to bf16, a rounding that is the identity over the extended reals; a block of the result
  depends on the same rows of the inputs and on the whole weights, so the blocks tile one whole-array function
  (Proof/KernelSage.lean, Proof/KernelClassify.lean). Between the regions the host operations of the program are read one
  stretch at a time (Proof/KernelHost.lean) and the program's result is composed boundary by boundary
  (Proof/KernelValue.lean over the run of Proof/KernelRun.lean). The reference's stages are the same three functions,
  a product read as the sum over the contracted axis, in the same association of the three summands (Proof/RefValue.lean,
  Proof/RefWhole.lean). No law beyond that reading is used: the finiteness of the float inputs is not needed.
-/
import proofs.«421759_j17703855194786_1_alg».proof.Defs
import proofs.«421759_j17703855194786_1_alg».proof.Proof.Gen.Kernel
import proofs.«421759_j17703855194786_1_alg».proof.Proof.Gen.Kernel.Skeleton
import proofs.«421759_j17703855194786_1_alg».proof.Proof.Gen.Kernel.Launch
import proofs.«421759_j17703855194786_1_alg».proof.Proof.Gen.Kernel.Points
import proofs.«421759_j17703855194786_1_alg».proof.Proof.Gen.Kernel.Frame
import proofs.«421759_j17703855194786_1_alg».proof.Proof.Gen.KernelIdeal
import proofs.«421759_j17703855194786_1_alg».proof.Proof.Gen.KernelIdeal.Skeleton
import proofs.«421759_j17703855194786_1_alg».proof.Proof.Gen.KernelIdeal.Launch
import proofs.«421759_j17703855194786_1_alg».proof.Proof.Gen.KernelIdeal.Points
import proofs.«421759_j17703855194786_1_alg».proof.Proof.Gen.KernelIdeal.Frame
import proofs.«421759_j17703855194786_1_alg».proof.Proof.Gen.ReferenceIdeal
import proofs.«421759_j17703855194786_1_alg».proof.Proof.Gen.ReferenceIdeal.Run
import proofs.«421759_j17703855194786_1_alg».proof.Proof.Gen.ReferenceIdeal.Read
import proofs.«421759_j17703855194786_1_alg».proof.Proof.Gen.Pre_finite_inputs
import proofs.«421759_j17703855194786_1_alg».proof.Proof.SrcRange
import proofs.«421759_j17703855194786_1_alg».proof.Proof.KernelRun
import proofs.«421759_j17703855194786_1_alg».proof.Proof.KernelValue
import proofs.«421759_j17703855194786_1_alg».proof.Proof.RefWhole
import Idealize.ShloMosaic.Adequacy
import Idealize.ShloMosaic.Init

noncomputable section

namespace Cert.Proof

open Idealize.ShloMosaic Idealize.SL.Sem

/-- The kernel's program, as printed, runs and leaves its arguments as launched. -/
theorem frame_kernel : Cert.frame_Kernel := fun m ρ _ => Cert.Kernel.Gen.frame m ρ

/-- The idealized kernel's program runs and leaves its arguments as launched. -/
theorem frame_kernelIdeal : Cert.frame_KernelIdeal := fun m ρ _ => Cert.KernelIdeal.Gen.frame m ρ

/-- The reference runs and leaves its arguments as launched: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Over the extended reals, from memories that agree on the arguments and whose source indices are in range, both
    programs end with the class scores of the second layer's result of the first layer's result of the input
    features. -/
theorem algebraic : Cert.algebraic_KernelIdeal_ReferenceIdeal := by
  intro m ρ m' ρ' hpre hagree
  have hs : ∀ c, Cert.KernelIdeal.Whole.SrcOk m c := fun c e =>
    Cert.Pre_finite_inputs.Decode.src_in_range _ _ _ _ _ _ _ _ _ _ _ (hpre c) e
  refine ⟨fun c => Cert.KernelIdeal.Whole.scores m c, ?_, ?_⟩
  · exact (θ_run Cert.KernelIdeal.defs _ _).mono
      (fun r h c => ⟨(h c).1.trans (Cert.KernelIdeal.Whole.result_eq m ρ c (hs c)), (h c).2⟩)
      (Cert.KernelIdeal.Run.run_out m ρ)
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v64_eq, Cert.ReferenceIdeal.RefValue.result_eq]
    obtain ⟨e0, e1, e2, e3, e4, e5, e6, e7, e8, e9, e10⟩ := hagree c
    rw [e0, e1, e3, e4, e5, e6, e7, e8, e9, e10]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
